-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1600000x128 : Shape := ⟨2, ![1600000, 128]⟩
abbrev S1600000 : Shape := ⟨1, ![1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v80 : IVec S_ 1) (main_v82 : IVec S1600000 1) (main_v84 : IVec S1600000 1) : IVec S_ 1 :=
  let main_v85 : IVec S1600000 1 := andi main_v82 main_v84
  let main_c_33 : IVec S_ 1 := constantI S_ 1 1#1
  let main_v86 : IVec S_ 1 := (fun x v => Host.reduce IntOp.andi x v reducesTo_S1600000_S_d0 h_S_) main_v85 main_c_33
  let main_v87 : IVec S_ 1 := andi main_v80 main_v86
  main_v87

def fn_part4 {F : FTy → Type} [FloatOps F] (main_arg14 : FVec F S1 .f32) (main_arg15 : IVec S1600000 32) (main_arg16 : IVec S1600000 32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 4294917296#32
  let main_v74 : IVec S1600000 32 := broadcastInDim S1600000 ![] bcast_S_S1600000 main_c_28
  let main_v75 : IVec S1600000 1 := cmpi .sge main_arg15 main_v74
  let main_c_29 : IVec S_ 32 := constantI S_ 32 50000#32
  let main_v76 : IVec S1600000 32 := broadcastInDim S1600000 ![] bcast_S_S1600000 main_c_29
  let main_v77 : IVec S1600000 1 := cmpi .slt main_arg15 main_v76
  let main_v78 : IVec S1600000 1 := andi main_v75 main_v77
  let main_c_30 : IVec S_ 1 := constantI S_ 1 1#1
  let main_v79 : IVec S_ 1 := (fun x v => Host.reduce IntOp.andi x v reducesTo_S1600000_S_d0 h_S_) main_v78 main_c_30
  let main_v80 : IVec S_ 1 := andi main_v73 main_v79
  let main_c_31 : IVec S_ 32 := constantI S_ 32 4294917296#32
  let main_v81 : IVec S1600000 32 := broadcastInDim S1600000 ![] bcast_S_S1600000 main_c_31
  let main_v82 : IVec S1600000 1 := cmpi .sge main_arg16 main_v81
  let main_c_32 : IVec S_ 32 := constantI S_ 32 50000#32
  let main_v83 : IVec S1600000 32 := broadcastInDim S1600000 ![] bcast_S_S1600000 main_c_32
  let main_v84 : IVec S1600000 1 := cmpi .slt main_arg16 main_v83
  fn_part5 (F := F) main_v80 main_v82 main_v84

def fn_part3 {F : FTy → Type} [FloatOps F] (main_arg11 : FVec F S128x128 .f32) (main_arg12 : FVec F S128 .f32) (main_arg13 : FVec F S128x1 .f32) (main_arg14 : FVec F S1 .f32) (main_arg15 : IVec S1600000 32) (main_arg16 : IVec S1600000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg13
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg14 main_arg15 main_arg16 main_v63 main_v67

def fn_part2 {F : FTy → Type} [FloatOps F] (main_arg7 : FVec F S256x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S1 .f32) (main_arg15 : IVec S1600000 32) (main_arg16 : IVec S1600000 32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x1 .f32) (main_arg6 : FVec F S1 .f32) (main_arg7 : FVec F S256x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S1 .f32) (main_arg15 : IVec S1600000 32) (main_arg16 : IVec S1600000 32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S50000x256 .f32) (main_arg1 : FVec F S1600000x128 .f32) (main_arg2 : FVec F S1600000 .f32) (main_arg3 : FVec F S256x128 .f32) (main_arg4 : FVec F S128 .f32) (main_arg5 : FVec F S128x1 .f32) (main_arg6 : FVec F S1 .f32) (main_arg7 : FVec F S256x128 .f32) (main_arg8 : FVec F S128 .f32) (main_arg9 : FVec F S128x1 .f32) (main_arg10 : FVec F S1 .f32) (main_arg11 : FVec F S128x128 .f32) (main_arg12 : FVec F S128 .f32) (main_arg13 : FVec F S128x1 .f32) (main_arg14 : FVec F S1 .f32) (main_arg15 : IVec S1600000 32) (main_arg16 : IVec S1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S50000x256 : Shape := ⟨2, ![50000, 256]⟩
abbrev S1600000x128 : Shape := ⟨2, ![1600000, 128]⟩
abbrev S1600000 : Shape := ⟨1, ![1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S256x256 : Shape := ⟨2, ![256, 256]⟩
abbrev S256 : Shape := ⟨1, ![256]⟩
abbrev S1x256 : Shape := ⟨2, ![1, 256]⟩
abbrev S_ : Shape := ⟨0, ![]⟩
abbrev S128x2 : Shape := ⟨2, ![128, 2]⟩
abbrev S256x2 : Shape := ⟨2, ![256, 2]⟩
abbrev S2 : Shape := ⟨1, ![2]⟩
abbrev S1x2 : Shape := ⟨2, ![1, 2]⟩
abbrev S50000x2 : Shape := ⟨2, ![50000, 2]⟩
abbrev S10000x256 : Shape := ⟨2, ![10000, 256]⟩
abbrev S10000x2 : Shape := ⟨2, ![10000, 2]⟩
abbrev S50000x1 : Shape := ⟨2, ![50000, 1]⟩
abbrev S50000 : Shape := ⟨1, ![50000]⟩
abbrev S1600000x1 : Shape := ⟨2, ![1600000, 1]⟩
abbrev S1x1 : Shape := ⟨2, ![1, 1]⟩
abbrev S1x1600000 : Shape := ⟨2, ![1, 1600000]⟩
abbrev S1x128 : Shape := ⟨2, ![1, 128]⟩
abbrev S32000x128 : Shape := ⟨2, ![32000, 128]⟩
abbrev S1x32000 : Shape := ⟨2, ![1, 32000]⟩
abbrev S32000x1 : Shape := ⟨2, ![32000, 1]⟩

abbrev nBuf : Space → Nat
  | .hbm => 100
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S1600000x128, .f32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1600000, .i32⟩
  | .hbm, ⟨16, _⟩ => ⟨S1600000, .i32⟩
  | .hbm, ⟨17, _⟩ => ⟨S256x256, .f32⟩
  | .hbm, ⟨18, _⟩ => ⟨S256, .f32⟩
  | .hbm, ⟨19, _⟩ => ⟨S1x256, .f32⟩
  | .hbm, ⟨20, _⟩ => ⟨S_, .f32⟩
  | .hbm, ⟨21, _⟩ => ⟨S128x1, .f32⟩
  | .hbm, ⟨22, _⟩ => ⟨S128x2, .f32⟩
  | .hbm, ⟨23, _⟩ => ⟨S128x2, .f32⟩
  | .hbm, ⟨24, _⟩ => ⟨S256x2, .f32⟩
  | .hbm, ⟨25, _⟩ => ⟨S2, .f32⟩
  | .hbm, ⟨26, _⟩ => ⟨S1x2, .f32⟩
  | .hbm, ⟨27, _⟩ => ⟨S50000x2, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1, .i32⟩
  | .hbm, ⟨41, _⟩ => ⟨S_, .i32⟩
  | .hbm, ⟨42, _⟩ => ⟨S1600000x1, .i32⟩
  | .hbm, ⟨43, _⟩ => ⟨S1600000x1, .i1⟩
  | .hbm, ⟨44, _⟩ => ⟨S1x1, .i32⟩
  | .hbm, ⟨45, _⟩ => ⟨S1600000x1, .i32⟩
  | .hbm, ⟨46, _⟩ => ⟨S1600000x1, .i1⟩
  | .hbm, ⟨47, _⟩ => ⟨S1600000x1, .i1⟩
  | .hbm, ⟨48, _⟩ => ⟨S_, .i1⟩
  | .hbm, ⟨49, _⟩ => ⟨S1600000, .i1⟩
  | .hbm, ⟨50, _⟩ => ⟨S1600000, .f32⟩
  | .hbm, ⟨51, _⟩ => ⟨S_, .f32⟩
  | .hbm, ⟨52, _⟩ => ⟨S1600000, .f32⟩
  | .hbm, ⟨53, _⟩ => ⟨S1600000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1, .i32⟩
  | .hbm, ⟨63, _⟩ => ⟨S_, .i32⟩
  | .hbm, ⟨64, _⟩ => ⟨S1600000x1, .i32⟩
  | .hbm, ⟨65, _⟩ => ⟨S1600000x1, .i1⟩
  | .hbm, ⟨66, _⟩ => ⟨S1x1, .i32⟩
  | .hbm, ⟨67, _⟩ => ⟨S1600000x1, .i32⟩
  | .hbm, ⟨68, _⟩ => ⟨S1600000x1, .i1⟩
  | .hbm, ⟨69, _⟩ => ⟨S1600000x1, .i1⟩
  | .hbm, ⟨70, _⟩ => ⟨S_, .i1⟩
  | .hbm, ⟨71, _⟩ => ⟨S1600000, .i1⟩
  | .hbm, ⟨72, _⟩ => ⟨S1600000, .f32⟩
  | .hbm, ⟨73, _⟩ => ⟨S_, .f32⟩
  | .hbm, ⟨74, _⟩ => ⟨S1600000, .f32⟩
  | .hbm, ⟨75, _⟩ => ⟨S1600000, .f32⟩
  | .hbm, ⟨76, _⟩ => ⟨S_, .f32⟩
  | .hbm, ⟨77, _⟩ => ⟨S1600000, .f32⟩
  | .hbm, ⟨78, _⟩ => ⟨S1600000, .f32⟩
  | .hbm, ⟨79, _⟩ => ⟨S_, .f32⟩
  | .hbm, ⟨80, _⟩ => ⟨S1600000, .f32⟩
  | .hbm, ⟨81, _⟩ => ⟨S1600000, .f32⟩
  | .hbm, ⟨82, _⟩ => ⟨S1600000, .f32⟩
  | .hbm, ⟨83, _⟩ => ⟨S1600000, .f32⟩
  | .hbm, ⟨84, _⟩ => ⟨S1600000, .f32⟩
  | .hbm, ⟨85, _⟩ => ⟨S1600000, .f32⟩
  | .hbm, ⟨86, _⟩ => ⟨S1600000, .f32⟩
  | .hbm, ⟨87, _⟩ => ⟨S1600000, .f32⟩
  | .hbm, ⟨88, _⟩ => ⟨S1x1600000, .f32⟩
  | .hbm, ⟨89, _⟩ => ⟨S1x128, .f32⟩
  | .hbm, ⟨90, _⟩ => ⟨S1x1, .f32⟩
  | .hbm, ⟨91, _⟩ => ⟨S1x1600000, .f32⟩
  | .hbm, ⟨92, _⟩ => ⟨S1600000, .f32⟩
  | .hbm, ⟨93, _⟩ => ⟨S_, .f32⟩
  | .hbm, ⟨94, _⟩ => ⟨S1600000, .f32⟩
  | .hbm, ⟨95, _⟩ => ⟨S1600000, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .local _ .vmem, ⟨0, _⟩ => ⟨S10000x256, .f32⟩
  | .local _ .vmem, ⟨1, _⟩ => ⟨S10000x256, .f32⟩
  | .local _ .vmem, ⟨2, _⟩ => ⟨S256x256, .f32⟩
  | .local _ .vmem, ⟨3, _⟩ => ⟨S1x256, .f32⟩
  | .local _ .vmem, ⟨4, _⟩ => ⟨S256x2, .f32⟩
  | .local _ .vmem, ⟨5, _⟩ => ⟨S1x2, .f32⟩
  | .local _ .vmem, ⟨6, _⟩ => ⟨S10000x2, .f32⟩
  | .local _ .vmem, ⟨7, _⟩ => ⟨S10000x2, .f32⟩
  | .local _ .vmem, ⟨8, _⟩ => ⟨S32000x128, .f32⟩
  | .local _ .vmem, ⟨9, _⟩ => ⟨S32000x128, .f32⟩
  | .local _ .vmem, ⟨10, _⟩ => ⟨S1x32000, .f32⟩
  | .local _ .vmem, ⟨11, _⟩ => ⟨S1x32000, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S1x32000, .f32⟩
  | .local _ .vmem, ⟨17, _⟩ => ⟨S1x32000, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v14 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v15 : Ref sig .tc := ⟨.hbm, 75, rfl⟩
abbrev main_cst_0 : Ref sig .tc := ⟨.hbm, 76, rfl⟩
abbrev main_v16 : Ref sig .tc := ⟨.hbm, 77, rfl⟩
abbrev main_v17 : Ref sig .tc := ⟨.hbm, 78, rfl⟩
abbrev main_cst_1 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_2 : Ref sig .tc := ⟨.hbm, 93, rfl⟩
abbrev main_v31 : Ref sig .tc := ⟨.hbm, 94, rfl⟩
abbrev main_v32 : Ref sig .tc := ⟨.hbm, 95, rfl⟩
abbrev main_cst_3 : Ref sig .tc := ⟨.hbm, 96, rfl⟩
abbrev main_v33 : Ref sig .tc := ⟨.hbm, 97, rfl⟩
abbrev main_cst_4 : Ref sig .tc := ⟨.hbm, 98, rfl⟩
abbrev main_v34 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x32000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S256x128_S256x128_S256x256_d1 : Shape.Concatenates [S256x128, S256x128] S256x256 1
  concatenates_S128_S128_S256_d0 : Shape.Concatenates [S128, S128] S256 0
  shapeCasts_S256_S1x256 : S256.ShapeCasts S1x256
  bcast_S_S128x1 : S_.BroadcastsInDim S128x1 (![] : Fin 0 → Fin S128x1.rank)
  concatenates_S128x1_S128x1_S128x2_d1 : Shape.Concatenates [S128x1, S128x1] S128x2 1
  concatenates_S128x2_S128x2_S256x2_d0 : Shape.Concatenates [S128x2, S128x2] S256x2 0
  concatenates_S1_S1_S2_d0 : Shape.Concatenates [S1, S1] S2 0
  shapeCasts_S2_S1x2 : S2.ShapeCasts S1x2
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S1600000_S1x1600000 : S1600000.ShapeCasts S1x1600000
  shapeCasts_S128_S1x128 : S128.ShapeCasts S1x128
  shapeCasts_S1_S1x1 : S1.ShapeCasts S1x1
  inb_S32000x128_S32000x128_0_0 : ∀ a, (![0, 0] : Fin 2 → Nat) a + S32000x128.size a ≤ S32000x128.size a
  h_S32000x128 : 0 < S32000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32000x128 : S1x128.Broadcasts S32000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32000x1 : S1x1.Broadcasts S32000x1
  transposes_S32000x1_p1_0_S1x32000 : S32000x1.Transposes [1, 0] S1x32000
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  shapeCasts_S1x1600000_S1600000 : S1x1600000.ShapeCasts S1600000
  reducesTo_S1600000_S_d0 : S1600000.ReducesTo [0] S_
  dot_S10000x256_S256x256_S10000x256_1_0_0_1_n_n_wf : DotDims.WF S10000x256 S256x256 S10000x256 [1] [0] [0] [1] [] []
  dot_S10000x256_S256x2_S10000x2_1_0_0_1_n_n_wf : DotDims.WF S10000x256 S256x2 S10000x2 [1] [0] [0] [1] [] []
  gather_S50000_S1600000x1_S1600000_n_0_n_n_0_1_1_wf : GatherDims.WF S50000 S1600000x1 S1600000 [] [0] [] [0] [] 1 ![1]
  dot_S32000x128_S128x128_S32000x128_1_0_0_1_n_n_wf : DotDims.WF S32000x128 S128x128 S32000x128 [1] [0] [0] [1] [] []
  dot_S32000x128_S128x1_S32000x1_1_0_0_1_n_n_wf : DotDims.WF S32000x128 S128x1 S32000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .f32 = 32 ∨ (Rect.block (s := S50000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .f32 = 32 ∨ (Rect.block (s := S256x2) S256x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x2.size a ≤ S50000x2.size a
  hwx0_5 : ∀ i : grid0.Coords, EltTy.bits .f32 = 32 ∨ (Rect.block (s := S50000x2) S10000x2.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32000x128.size a ≤ S1600000x128.size a
  hwx1_0 : ∀ i : grid1.Coords, EltTy.bits .f32 = 32 ∨ (Rect.block (s := S1600000x128) S32000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32000.size a ≤ S1x1600000.size a
  hwx1_1 : ∀ i : grid1.Coords, EltTy.bits .f32 = 32 ∨ (Rect.block (s := S1x1600000) S1x32000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x32000.size a ≤ S1x1600000.size a
  hwx1_6 : ∀ i : grid1.Coords, EltTy.bits .f32 = 32 ∨ (Rect.block (s := S1x1600000) S1x32000.size (cc1_transform_6 i) (hinb1_6 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x2_S10000x2_1_0_0_1_n_n : DotDims S10000x256 S256x2 S10000x2 where
  lhsContracting := [1]
  rhsContracting := [0]
  lhsNonContracting := [0]
  rhsNonContracting := [1]
  lhsBatch := []
  rhsBatch := []
  wf := dot_S10000x256_S256x2_S10000x2_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S32000x128_S128x128_S32000x128_1_0_0_1_n_n : DotDims S32000x128 S128x128 S32000x128 where
  lhsContracting := [1]
  rhsContracting := [0]
  lhsNonContracting := [0]
  rhsNonContracting := [1]
  lhsBatch := []
  rhsBatch := []
  wf := dot_S32000x128_S128x128_S32000x128_1_0_0_1_n_n_wf
def dot_S32000x128_S128x1_S32000x1_1_0_0_1_n_n : DotDims S32000x128 S128x1 S32000x1 where
  lhsContracting := [1]
  rhsContracting := [0]
  lhsNonContracting := [0]
  rhsNonContracting := [1]
  lhsBatch := []
  rhsBatch := []
  wf := dot_S32000x128_S128x1_S32000x1_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S10000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S32000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x32000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x32000.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S1600000x128 : Shape := ⟨2, ![1600000, 128]⟩
abbrev S1600000 : Shape := ⟨1, ![1600000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S50000x128 : Shape := ⟨2, ![50000, 128]⟩
abbrev S1x128 : Shape := ⟨2, ![1, 128]⟩
abbrev S_ : Shape := ⟨0, ![]⟩
abbrev S50000x1 : Shape := ⟨2, ![50000, 1]⟩
abbrev S1x1 : Shape := ⟨2, ![1, 1]⟩
abbrev S50000 : Shape := ⟨1, ![50000]⟩
abbrev S1600000x1 : Shape := ⟨2, ![1600000, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S1600000x128, .f32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1600000, .i32⟩
  | .hbm, ⟨16, _⟩ => ⟨S1600000, .i32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .i1⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x1, .f32⟩
  | .hbm, ⟨29, _⟩ => ⟨S1x1, .f32⟩
  | .hbm, ⟨30, _⟩ => ⟨S50000x1, .f32⟩
  | .hbm, ⟨31, _⟩ => ⟨S50000x1, .f32⟩
  | .hbm, ⟨32, _⟩ => ⟨S50000, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .i1⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x1, .f32⟩
  | .hbm, ⟨45, _⟩ => ⟨S1x1, .f32⟩
  | .hbm, ⟨46, _⟩ => ⟨S50000x1, .f32⟩
  | .hbm, ⟨47, _⟩ => ⟨S50000x1, .f32⟩
  | .hbm, ⟨48, _⟩ => ⟨S50000, .f32⟩
  | .hbm, ⟨49, _⟩ => ⟨S1600000x128, .f32⟩
  | .hbm, ⟨50, _⟩ => ⟨S1x128, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S1600000x128, .f32⟩
  | .hbm, ⟨55, _⟩ => ⟨S1600000x128, .i1⟩
  | .hbm, ⟨56, _⟩ => ⟨S_, .f32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S1600000x1, .f32⟩
  | .hbm, ⟨61, _⟩ => ⟨S1x1, .f32⟩
  | .hbm, ⟨62, _⟩ => ⟨S1600000x1, .f32⟩
  | .hbm, ⟨63, _⟩ => ⟨S1600000x1, .f32⟩
  | .hbm, ⟨64, _⟩ => ⟨S1600000, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000, .f32⟩
  | .hbm, ⟨83, _⟩ => ⟨S1600000, .f32⟩
  | .hbm, ⟨84, _⟩ => ⟨S1600000, .f32⟩
  | .hbm, ⟨85, _⟩ => ⟨S_, .f32⟩
  | .hbm, ⟨86, _⟩ => ⟨S1600000, .f32⟩
  | .hbm, ⟨87, _⟩ => ⟨S1600000, .f32⟩
  | .hbm, ⟨88, _⟩ => ⟨S_, .f32⟩
  | .hbm, ⟨89, _⟩ => ⟨S1600000, .f32⟩
  | .hbm, ⟨90, _⟩ => ⟨S1600000, .f32⟩
  | .hbm, ⟨91, _⟩ => ⟨S1600000, .f32⟩
  | .hbm, ⟨92, _⟩ => ⟨S1600000, .f32⟩
  | .hbm, ⟨93, _⟩ => ⟨S1600000, .f32⟩
  | .hbm, ⟨94, _⟩ => ⟨S1600000, .f32⟩
  | .hbm, ⟨95, _⟩ => ⟨S1600000, .f32⟩
  | .hbm, ⟨96, _⟩ => ⟨S_, .f32⟩
  | .hbm, ⟨97, _⟩ => ⟨S1600000, .f32⟩
  | .hbm, ⟨98, _⟩ => ⟨S1600000, .f32⟩
  | .hbm, ⟨99, _⟩ => ⟨S1600000, .f32⟩
  | .hbm, ⟨100, _⟩ => ⟨S1600000, .f32⟩
  | .hbm, ⟨101, _⟩ => ⟨S_, .f32⟩
  | .hbm, ⟨102, _⟩ => ⟨S1600000, .f32⟩
  | .hbm, ⟨103, _⟩ => ⟨S1600000, .f32⟩
  | .hbm, ⟨104, _⟩ => ⟨S_, .f32⟩
  | .hbm, ⟨105, _⟩ => ⟨S1600000, .f32⟩
  | .hbm, ⟨106, _⟩ => ⟨S1600000, .f32⟩
  | .hbm, ⟨107, _⟩ => ⟨S_, .f32⟩
  | .hbm, ⟨108, _⟩ => ⟨S1600000, .f32⟩
  | .hbm, ⟨109, _⟩ => ⟨S1600000, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_6 : Ref sig .tc := ⟨.hbm, 74, rfl⟩
abbrev main_v49 : Ref sig .tc := ⟨.hbm, 75, rfl⟩
abbrev main_v50 : Ref sig .tc := ⟨.hbm, 76, rfl⟩
abbrev main_c_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1x1_S1600000x1_0_1 : S1x1.BroadcastsInDim S1600000x1 (![0, 1] : Fin 2 → Fin S1600000x1.rank)
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  h_S_ : 0 < S_.numel
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []
  gather_S50000_S1600000x1_S1600000_n_0_n_n_0_1_1_wf : GatherDims.WF S50000 S1600000x1 S1600000 [] [0] [] [0] [] 1 ![1]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf

class Facts : Prop extends Facts₀ where

variable [Facts]
-- ==== Proof.IndexRange.lean ====
/-
  The admitted range of an edge's endpoint: a signed 32-bit word in [-50000, 50000), the range in which numpy-style
  indexing of a 50000-entry table is defined (a negative word counts from the end).
-/
import Idealize.ShloMosaic.PureOps
import Idealize.ShloMosaic.Lib.Affine

namespace Cert.Spec

open Idealize.ShloMosaic

/-- Every word of the index vector is at least -50000 (the word 4294917296) and below 50000, read signed. -/
def InRange (x : IVec ⟨1, ![1600000]⟩ 32) : Prop :=
  ∀ e : (⟨1, ![1600000]⟩ : Shape).Idx, IntOp.cmpi .sge (x e) 4294917296#32 = 1#1 ∧ IntOp.cmpi .slt (x e) 50000#32 = 1#1

end Cert.Spec
-- ==== Proof.PreRange.lean ====
/-
  What the precondition says of the two index vectors: its last two conjuncts are `jnp.all` of
  (-50000 ≤ src) ∧ (src < 50000) and the same of dst; the precondition being all ones, every word of both is in range.
-/
import proofs.«405104_j37160057045562_3_alg».proof.Pre_finite_inputs
import proofs.«405104_j37160057045562_3_alg».proof.Proof.Gen.Pre_finite_inputs
import proofs.«405104_j37160057045562_3_alg».proof.Proof.IndexRange
import Idealize.ShloMosaic.Lib.ReduceAll
import Idealize.ShloMosaic.Lib.ValueIdx

noncomputable section

namespace Cert.Pre_finite_inputs.Range

open Idealize.ShloMosaic Cert.Pre_finite_inputs Cert.Pre_finite_inputs.Facts

variable {F : FTy → Type} [FloatOps F]

instance : Subsingleton S_.Idx := ⟨fun a b => funext fun d => d.elim0⟩

/-- An `and`-reduce to a scalar of (lo ≤ x) ∧ (x < hi) that came out 1 bounds every word of `x`. -/
theorem inRange_of_all (x : IVec S1600000 32)
    (h : Host.reduce IntOp.andi (andi (cmpi .sge x (broadcastInDim S1600000 ![] bcast_S_S1600000 (constantI S_ 32 4294917296#32)))
        (cmpi .slt x (broadcastInDim S1600000 ![] bcast_S_S1600000 (constantI S_ 32 50000#32))))
      (constantI S_ 1 1#1) reducesTo_S1600000_S_d0 h_S_ ValueIdx.ix0 = 1#1) : Cert.Spec.InRange x := fun e =>
  IntOp.andi_eq_one.mp (Host.reduce_andi_all _ _ reducesTo_S1600000_S_d0 h_S_ ValueIdx.ix0 h e)

/-- The precondition all ones puts both index vectors in range. -/
theorem range_of_pre (a0 : FVec F S50000x256 .f32) (a1 : FVec F S1600000x128 .f32) (a2 : FVec F S1600000 .f32)
    (a3 : FVec F S256x128 .f32) (a4 : FVec F S128 .f32) (a5 : FVec F S128x1 .f32) (a6 : FVec F S1 .f32)
    (a7 : FVec F S256x128 .f32) (a8 : FVec F S128 .f32) (a9 : FVec F S128x1 .f32) (a10 : FVec F S1 .f32)
    (a11 : FVec F S128x128 .f32) (a12 : FVec F S128 .f32) (a13 : FVec F S128x1 .f32) (a14 : FVec F S1 .f32)
    (a15 : IVec S1600000 32) (a16 : IVec S1600000 32)
    (h : fn (F := F) a0 a1 a2 a3 a4 a5 a6 a7 a8 a9 a10 a11 a12 a13 a14 a15 a16 = fun _ => 1#1) :
    Cert.Spec.InRange a15 ∧ Cert.Spec.InRange a16 := by
  have h0 := congrFun h ValueIdx.ix0
  dsimp only [fn, fn_part1, fn_part2, fn_part3, fn_part4, fn_part5] at h0
  obtain ⟨h1, hdst⟩ := IntOp.andi_eq_one.mp h0
  obtain ⟨_, hsrc⟩ := IntOp.andi_eq_one.mp h1
  exact ⟨inRange_of_all a15 hsrc, inRange_of_all a16 hdst⟩

end Cert.Pre_finite_inputs.Range

end
-- ==== Proof.Spec.lean ====
/-
  The mathematics both programs compute, as plain functions on extended reals.

  An edge-drop learner: three two-layer perceptrons with a leaky rectifier (slope the f32 word 0x3C23D70A, about 0.01)
  score every node twice (as a source, as a destination) and every edge once; an edge's gate is the logistic of
  (source score + destination score + edge score + a Gumbel term log ε − log1p(−ε)) / 0.5, and the regulariser is the
  mean of 1 − gate.  Nothing here mentions a program: the two value modules state what each program's arrays hold in
  these terms, and the closing algebra joins them.
-/
import Idealize.ShloMosaic.PureOps.Ideal
import Idealize.ShloMosaic.Lib.ValueIdx

noncomputable section

open scoped BigOperators

namespace Cert.Spec

open Idealize.ShloMosaic Idealize.ShloMosaic.ValueIdx

/-- The leaky rectifier as both programs spell it: `h` where `h > 0`, else the slope word times `h`. -/
def leaky (h : EReal) : EReal :=
  Scalar.select (Ideal.cmp .ogt h (Ideal.ofBits .f32 0x00000000#32)) h (Ideal.ofBits .f32 0x3C23D70A#32 * h)

/-- One hidden unit: the rectified affine form of a row. `x` is the row, `w` the unit's weight column, `b` its bias. -/
def hidden {D : Nat} (x : Fin D → EReal) (w : Fin D → EReal) (b : EReal) : EReal :=
  leaky ((∑ d : Fin D, x d * w d) + b)

/-- A perceptron's scalar output for one row: the hidden units against the second layer's column, plus its bias. -/
def mlp {D H : Nat} (x : Fin D → EReal) (w1 : Fin D → Fin H → EReal) (b1 : Fin H → EReal) (w2 : Fin H → EReal)
    (b2 : EReal) : EReal :=
  (∑ k : Fin H, hidden x (fun d => w1 d k) (b1 k) * w2 k) + b2

/-- What the fused node kernel leaves at row `n`, column `j` of its [50000, 2] output: ONE perceptron with 256 hidden
    units over the first-layer weights `W1 : [256, 256]`, bias row `B1 : [1, 256]`, second layer `W2 : [256, 2]` and bias
    row `B2 : [1, 2]`. -/
def nodeOut (X : (⟨2, ![50000, 256]⟩ : Shape).Idx → EReal) (W1 : (⟨2, ![256, 256]⟩ : Shape).Idx → EReal)
    (B1 : (⟨2, ![1, 256]⟩ : Shape).Idx → EReal) (W2 : (⟨2, ![256, 2]⟩ : Shape).Idx → EReal)
    (B2 : (⟨2, ![1, 2]⟩ : Shape).Idx → EReal) (n : Fin 50000) (j : Fin 2) : EReal :=
  mlp (fun d : Fin 256 => X (ix2 n d)) (fun (d : Fin 256) (k : Fin 256) => W1 (ix2 d k)) (fun k => B1 (ix2 (0 : Fin 1) k))
    (fun k => W2 (ix2 k j)) (B2 (ix2 (0 : Fin 1) j))

/-- The edge perceptron's score of edge `e`, over the kernel's 2-D bias arrays `B1 : [1, 128]`, `B2 : [1, 1]`. -/
def edgeScore (EF : (⟨2, ![1600000, 128]⟩ : Shape).Idx → EReal) (W1 : (⟨2, ![128, 128]⟩ : Shape).Idx → EReal)
    (B1 : (⟨2, ![1, 128]⟩ : Shape).Idx → EReal) (W2 : (⟨2, ![128, 1]⟩ : Shape).Idx → EReal)
    (B2 : (⟨2, ![1, 1]⟩ : Shape).Idx → EReal) (e : Fin 1600000) : EReal :=
  mlp (fun d : Fin 128 => EF (ix2 e d)) (fun (d : Fin 128) (k : Fin 128) => W1 (ix2 d k)) (fun k => B1 (ix2 (0 : Fin 1) k))
    (fun k => W2 (ix2 k (0 : Fin 1))) (B2 (ix2 (0 : Fin 1) (0 : Fin 1)))

/-- What the edge kernel leaves at column `e` of its [1, 1600000] output: the logistic of (the precomputed row `G` at `e`
    plus the edge's score) divided by the temperature word 0x3F000000 (0.5). -/
def edgeOut (EF : (⟨2, ![1600000, 128]⟩ : Shape).Idx → EReal) (G : (⟨2, ![1, 1600000]⟩ : Shape).Idx → EReal)
    (W1 : (⟨2, ![128, 128]⟩ : Shape).Idx → EReal) (B1 : (⟨2, ![1, 128]⟩ : Shape).Idx → EReal)
    (W2 : (⟨2, ![128, 1]⟩ : Shape).Idx → EReal) (B2 : (⟨2, ![1, 1]⟩ : Shape).Idx → EReal) (e : Fin 1600000) : EReal :=
  Ideal.logistic (Ideal.div (G (ix2 (0 : Fin 1) e) + edgeScore EF W1 B1 W2 B2 e) (Ideal.ofBits .f32 0x3F000000#32))

/-- The Gumbel argument both programs form from a uniform draw `u`: the word 0xBF7FF2E5 (2·1e-4 − 1) times `u` plus the
    word 0x3F7FF972 (1 − 1e-4). -/
def gumbelEps (u : EReal) : EReal :=
  Ideal.ofBits .f32 0xBF7FF2E5#32 * u + Ideal.ofBits .f32 0x3F7FF972#32

/-- The row the kernel's program precomputes on the host for an edge: (source score + destination score + log ε) − log1p(−ε). -/
def kernelRow (u a b : EReal) : EReal :=
  ((a + b) + Ideal.log (gumbelEps u)) - Ideal.log1p (-(gumbelEps u))

/-- The kernel's gate of an edge: the logistic of (its precomputed row + its edge score) over the temperature word. -/
def kernelGate (u a b s : EReal) : EReal :=
  Ideal.logistic (Ideal.div (kernelRow u a b + s) (Ideal.ofBits .f32 0x3F000000#32))

/-- The reference's gate of an edge, as jax expands the logistic: 1 / (1 + exp (−((log ε − log1p(−ε)) + ((a + b) + s)) / 0.5)),
    the two ones the word 0x3F800000. -/
def refGate (u a b s : EReal) : EReal :=
  Ideal.div (Ideal.ofBits .f32 0x3F800000#32) (Ideal.ofBits .f32 0x3F800000#32 + Ideal.exp (-(Ideal.div
    ((Ideal.log (gumbelEps u) - Ideal.log1p (-(gumbelEps u))) + ((a + b) + s)) (Ideal.ofBits .f32 0x3F000000#32))))

end Cert.Spec

end
-- ==== Proof.Algebra.lean ====
/-
  The two laws that join the programs' values.

  (1) The kernel fuses the source and destination perceptrons into ONE perceptron of 2H hidden units whose second
      layer is block diagonal: output column 0 has weight zero on the last H hidden units, column 1 on the first H.
      A hidden unit times zero is zero on the extended reals whatever the unit's value, so the fused output is the
      perceptron over the half of the units whose weights are not zero.
  (2) The kernel adds the Gumbel term into the gathered scores on the host and the edge score in the kernel; the
      reference adds the three scores first.  A difference on the extended reals is the sum with the negative, and
      sums commute and associate there, so the two arguments of the logistic are one extended real.  jax expands the
      reference's logistic into 1 / (1 + exp (−x)) over the word 0x3F800000, which denotes 1.
-/
import proofs.«405104_j37160057045562_3_alg».proof.Proof.Spec
import Idealize.ShloMosaic.PureOps.IdealRules

noncomputable section

open scoped BigOperators

namespace Cert.Spec

open Idealize.ShloMosaic

/-- The f32 word 0x3F800000 denotes 1. -/
theorem ofBits_one : Ideal.ofBits .f32 0x3F800000#32 = 1 := IdealRules.sign_bit.ideal_onePat .f32

/-- A perceptron of H + H hidden units whose second layer vanishes on the LAST H of them is the perceptron over the
    first H. -/
theorem mlp_last_zero {D : Nat} (H : Nat) (x : Fin D → EReal) (w1 : Fin D → Fin (H + H) → EReal) (b1 : Fin (H + H) → EReal)
    (w2 : Fin (H + H) → EReal) (b2 : EReal) (h0 : ∀ k : Fin H, w2 (Fin.natAdd H k) = 0) :
    mlp x w1 b1 w2 b2
      = mlp x (fun d k => w1 d (Fin.castAdd H k)) (fun k => b1 (Fin.castAdd H k)) (fun k => w2 (Fin.castAdd H k)) b2 := by
  unfold mlp
  rw [Fin.sum_univ_add]
  have hz : (∑ k : Fin H, hidden x (fun d => w1 d (Fin.natAdd H k)) (b1 (Fin.natAdd H k)) * w2 (Fin.natAdd H k)) = 0 :=
    Finset.sum_eq_zero fun k _ => by rw [h0 k, mul_zero]
  rw [hz, add_zero]

/-- … and one whose second layer vanishes on the FIRST H of them is the perceptron over the last H. -/
theorem mlp_first_zero {D : Nat} (H : Nat) (x : Fin D → EReal) (w1 : Fin D → Fin (H + H) → EReal) (b1 : Fin (H + H) → EReal)
    (w2 : Fin (H + H) → EReal) (b2 : EReal) (h0 : ∀ k : Fin H, w2 (Fin.castAdd H k) = 0) :
    mlp x w1 b1 w2 b2
      = mlp x (fun d k => w1 d (Fin.natAdd H k)) (fun k => b1 (Fin.natAdd H k)) (fun k => w2 (Fin.natAdd H k)) b2 := by
  unfold mlp
  rw [Fin.sum_univ_add]
  have hz : (∑ k : Fin H, hidden x (fun d => w1 d (Fin.castAdd H k)) (b1 (Fin.castAdd H k)) * w2 (Fin.castAdd H k)) = 0 :=
    Finset.sum_eq_zero fun k _ => by rw [h0 k, mul_zero]
  rw [hz, zero_add]

/-- The kernel's and the reference's arguments of the logistic are one sum. -/
theorem row_add_eq (u a b s : EReal) :
    kernelRow u a b + s = (Ideal.log (gumbelEps u) - Ideal.log1p (-(gumbelEps u))) + ((a + b) + s) := by
  unfold kernelRow
  simp only [sub_eq_add_neg]
  ac_rfl

/-- So the two gates of an edge are one extended real. -/
theorem kernelGate_eq_refGate (u a b s : EReal) : kernelGate u a b s = refGate u a b s := by
  unfold kernelGate refGate Ideal.logistic
  rw [row_add_eq, ofBits_one]

end Cert.Spec

end
-- ==== Proof.LibRowGather.lean ====
/-
  A row gather read at an index, and an all-ones mask folded by `and`.

  `x[idx]` for a matrix `x : [N, C]` and a column of row numbers `idx : [E, 1]` is StableHLO's gather with
  offset axis 1, collapsed axis 0, start index map [0], index vector axis 1 and slices of one whole row.
  Its element `(e, f)` is `x` at row `min (toNat (toInt idx[e, 0])) (N - 1)` and column `f`: the row number
  is read signed, clamped into the matrix, and does not depend on the column; the column passes through.
  So a function applied row by row commutes with the gather, whatever the row numbers are.

  A reduce by `and` from the constant 1 over words that are all 1 is 1 (the converse of reading an
  element out of a reduce that is 1).
-/
import Idealize.ShloMosaic.PureOps
import Idealize.ShloMosaic.PureOps.Reduce
import Idealize.ShloMosaic.Lib.ValueIdx
import Idealize.ShloMosaic.Lib.Affine

noncomputable section

namespace Idealize.ShloMosaic.RowGather

open Idealize.ShloMosaic Idealize.ShloMosaic.ValueIdx

variable {α : Type}

/-- The dimension numbers of a row gather: operand `[N, C]`, start indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for result row `e`: the start index read signed and clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- The row gather at `(e, f)` is the operand at `(rowOf e, f)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowDims N C E wf) x idx (ix2 e f) = x (ix2 (rowOf hN idx e) f) := by
  unfold Host.gather
  congr 1
  funext a
  refine Fin.ext ?_
  match a with
  | ⟨0, _⟩ =>
    show (rowDims N C E wf).start (ix2 e f) idx 0 + (rowDims N C E wf).batchCoord (ix2 e f) 0
      + (rowDims N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e f) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e f) idx 1 + (rowDims N C E wf).batchCoord (ix2 e f) 1
      + (rowDims N C E wf).offCoord (ix2 e f) 1 = _
    have hs : (rowDims N C E wf).start (ix2 e f) idx 1 = 0 := by
      unfold GatherDims.start
      rw [dif_neg (fun h : (1 : Fin 2) ∈ (rowDims N C E wf).startIndexMap =>
        absurd (congrArg Fin.val (List.mem_singleton.mp h)) Nat.one_ne_zero)]
    rw [GatherDims.batchCoord_eq_zero _ _ _ List.not_mem_nil, hs]
    simp only [Nat.zero_add, Nat.add_zero]
    unfold GatherDims.offCoord
    rw [dif_pos ((GatherDims.mem_sKept _ _).mpr
      ⟨fun h : (1 : Fin 2) ∈ (rowDims N C E wf).collapsedSliceDims =>
        absurd (congrArg Fin.val (List.mem_singleton.mp h)) Nat.one_ne_zero, List.not_mem_nil⟩)]
    rfl

/-- A left fold by `and` from 1 over words that are all 1 is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    refine foldl_andi_of_all_one f l _ ?_ (fun n hn => hl n (List.mem_cons_of_mem _ hn))
    show IntOp.andi init (f a) = 1#1
    rw [h, hl a (List.mem_cons_self ..)]; rfl

/-- A `stablehlo.reduce` by `and` from 1 of an array of 1s is 1 at every result index. -/
theorem reduce_andi_of_all_one {s t u : Shape} {axes : List (Fin s.rank)} (x : s.Idx → BitVec 1)
    (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact foldl_andi_of_all_one x _ _ hinit (fun n _ => hx n)

/-! ## A row number wrapped once

`jnp` indexing adds the extent to a negative row number before it gathers. For a signed word in `[-n, n)`
the wrapped word is in `[0, n - 1]`: the range test a filling `take` makes on it passes. -/

/-- Words in `[-n, n)` wrap into `[0, n - 1]`; `lo`, `hi`, `m` are the printed constants `-n`, `n`, `n - 1`. -/
theorem wrap_in_range (n : Int) (hn : 0 < n ∧ n < 2 ^ 30) (s lo hi m : BitVec 32)
    (hlo : lo.toInt = -n) (hhi : hi.toInt = n) (hm : m.toInt = n - 1)
    (hge : IntOp.cmpi .sge s lo = 1#1) (hlt : IntOp.cmpi .slt s hi = 1#1) :
    IntOp.cmpi .sge (Scalar.select (IntOp.cmpi .slt s 0#32) (IntOp.addi s hi) s) 0#32 = 1#1
      ∧ IntOp.cmpi .sle (Scalar.select (IntOp.cmpi .slt s 0#32) (IntOp.addi s hi) s) m = 1#1 := by
  rw [IntOp.cmpi_sge, hlo] at hge
  rw [IntOp.cmpi_slt, hhi] at hlt
  have h0 : (0#32 : BitVec 32).toInt = 0 := by decide
  by_cases hneg : s.toInt < 0
  · have hc : IntOp.cmpi .slt s 0#32 = 1#1 := IntOp.cmpi_slt.mpr (by rw [h0]; exact hneg)
    have hsum : (IntOp.addi s hi).toInt = s.toInt + n := by
      rw [IntOp.addi, BitVec.toInt_add, hhi]
      exact Int.bmod_eq_of_le (by omega) (by omega)
    rw [hc, show Scalar.select 1#1 (IntOp.addi s hi) s = IntOp.addi s hi from if_pos rfl,
      IntOp.cmpi_sge, IntOp.cmpi_sle, h0, hm, hsum]
    omega
  · have hc : ¬IntOp.cmpi .slt s 0#32 = 1#1 := fun h => hneg (by have := IntOp.cmpi_slt.mp h; rwa [h0] at this)
    rw [show Scalar.select (IntOp.cmpi .slt s 0#32) (IntOp.addi s hi) s = s from if_neg hc,
      IntOp.cmpi_sge, IntOp.cmpi_sle, h0, hm]
    omega

end Idealize.ShloMosaic.RowGather

end
-- ==== Proof.TakeMask.lean ====
/-
  The filling `take` of the kernel's program is a plain gather on in-range indices.

  jnp's `take` wraps a negative index once (adds 50000), tests the wrapped index against [0, 49999], gathers, and
  replaces the gathered value by a NaN where the test fails.  For an index vector in [-50000, 50000) the wrapped
  index is in [0, 49999], the test is all ones, and the select returns the gathered value everywhere.
-/
import proofs.«405104_j37160057045562_3_alg».proof.KernelIdeal
import proofs.«405104_j37160057045562_3_alg».proof.Proof.Gen.KernelIdeal
import proofs.«405104_j37160057045562_3_alg».proof.Proof.LibRowGather
import proofs.«405104_j37160057045562_3_alg».proof.Proof.IndexRange
import Idealize.ShloMosaic.Lib.ValueIdx

set_option maxRecDepth 16384

noncomputable section

namespace Cert.KernelIdeal.TakeMask

open Idealize.ShloMosaic Cert.KernelIdeal Cert.KernelIdeal.Facts₀ Cert.KernelIdeal.Facts

variable {α : Type}

/-- The wrapped index as the column the gather takes: `x + 50000` where `x < 0`, else `x`, laid as [1600000, 1]. -/
def wrapCol (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- The range test on the wrapped index, folded over the column's one entry per row. -/
def inBounds (x : IVec S1600000 32) : IVec S1600000 1 :=
  Host.reduce IntOp.andi
    (andi (cmpi .sge (wrapCol x) (broadcastInDim S1600000x1 ![] bcast_S_S1600000x1 (constantI S_ 32 0#32)))
      (cmpi .sle (wrapCol x) (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The filling take: the gathered value where the test holds, else the fill `fillv`. -/
def takeFill (tbl : S50000.Idx → α) (x : IVec S1600000 32) (fillv : S1600000.Idx → α) : S1600000.Idx → α :=
  select (inBounds x) (Host.gather gather_S50000_S1600000x1_S1600000_n_0_n_n_0_1_1 tbl (wrapCol x)) fillv

/-- In range, the test is all ones: each row's one entry is the wrapped index of some position, which lies in [0, 49999]. -/
theorem inBounds_of_inRange (x : IVec S1600000 32) (hx : Cert.Spec.InRange x) (i : S1600000.Idx) : inBounds x i = 1#1 := by
  have key : ∀ k : S1600000.Idx,
      IntOp.andi (IntOp.cmpi .sge (Scalar.select (IntOp.cmpi .slt (x k) 0#32) (IntOp.addi (x k) 50000#32) (x k)) 0#32)
        (IntOp.cmpi .sle (Scalar.select (IntOp.cmpi .slt (x k) 0#32) (IntOp.addi (x k) 50000#32) (x k)) 49999#32) = 1#1 := fun k => by
    obtain ⟨hge, hlt⟩ := hx k
    exact IntOp.andi_eq_one.mpr (RowGather.wrap_in_range 50000 ⟨by norm_num, by norm_num⟩ (x k) 4294917296#32 50000#32 49999#32
      (by decide) (by decide) (by decide) hge hlt)
  refine RowGather.reduce_andi_of_all_one _ _ reducesTo_S1600000x1_S1600000_d1 h_S_ rfl (fun idx => ?_) i
  exact key _

/-- So the filling take of an in-range index vector is the gather at the wrapped column, whatever the fill. -/
theorem takeFill_eq (tbl : S50000.Idx → α) (x : IVec S1600000 32) (fillv : S1600000.Idx → α) (hx : Cert.Spec.InRange x) :
    takeFill tbl x fillv = Host.gather gather_S50000_S1600000x1_S1600000_n_0_n_n_0_1_1 tbl (wrapCol x) := by
  funext i
  unfold takeFill
  rw [ValueIdx.select_apply, inBounds_of_inRange x hx i]
  exact ValueIdx.select_one _ _

end Cert.KernelIdeal.TakeMask

end
-- ==== Proof.TakeAfter.lean ====
/-
  The two takes' operations, run from any buffer contents, leave the filling take of the table at the index vector.
-/
import proofs.«405104_j37160057045562_3_alg».proof.Proof.Gen.KernelIdeal.Frame
import proofs.«405104_j37160057045562_3_alg».proof.Proof.TakeMask
import Idealize.ShloMosaic.Lib.StableHlo.Run

set_option maxRecDepth 16384

noncomputable section

namespace Cert.KernelIdeal.TakeAfter

open Idealize.ShloMosaic Idealize.ShloMosaic.TcCoe Idealize.SL.Sem Idealize.ShloMosaic.StableHlo
open Cert.KernelIdeal Cert.KernelIdeal.Gen

/-- The fill of jnp's `take`: the NaN word everywhere. -/
abbrev fillNaN : S1600000.Idx → EReal :=
  broadcastInDim S1600000 ![] bcast_S_S1600000 (constant (F := Ideal) S_ .f32 0x7FC00000#32)

/-! ## A line of operations run in two stretches -/

/-- Running a concatenation is running its first stretch, then its second from what the first left. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o os ih => exact ih (o.result W)

/-- Running a line with one more operation at its end is that operation's result on what the line left. -/
theorem after_snoc (l : List (HloOp τ sig (Elt Ideal))) (op : HloOp τ sig (Elt Ideal)) (W : Valuation τ sig (Elt Ideal)) :
    StableHlo.after (l ++ [op]) W = op.result (StableHlo.after l W) := by
  rw [after_append]; rfl

/-! ## The source take -/

/-- Its operations up to the gather: the wrapped index, the range test, the gathered values. -/
abbrev srcPre : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_arg15 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_arg15 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_arg15 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0),
    StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_),
    StableHlo.TRef.binary (.of main_v11 : StableHlo.TRef sig ⟨S50000, .f32⟩) (.of main_call0_v5 : StableHlo.TRef sig ⟨S1600000x1, .i32⟩) (.of main_call0_v13 : StableHlo.TRef sig ⟨S1600000, .f32⟩) (fun x i => Host.gather gather_S50000_S1600000x1_S1600000_n_0_n_n_0_1_1 x i) ]
/-- The two operations that make the fill. -/
abbrev srcFill : List (HloOp τ sig (Elt Ideal)) :=
  [ StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v14 : StableHlo.TRef sig ⟨S1600000, .f32⟩) (broadcastInDim S1600000 ![] bcast_S_S1600000) ]
/-- The closing select. -/
abbrev srcLast : HloOp τ sig (Elt Ideal) :=
  StableHlo.TRef.ternary (.of main_call0_v12 : StableHlo.TRef sig ⟨S1600000, .i1⟩) (.of main_call0_v13 : StableHlo.TRef sig ⟨S1600000, .f32⟩) (.of main_call0_v14 : StableHlo.TRef sig ⟨S1600000, .f32⟩) (.of main_v14 : StableHlo.TRef sig ⟨S1600000, .f32⟩) select

theorem src_ops_eq : (hostOps1_1 : List (HloOp τ sig (Elt Ideal))) = (srcPre ++ srcFill) ++ [srcLast] := rfl

/-- The range test's buffer after the first stretch. -/
theorem src_inBounds (W : Valuation τ sig (Elt Ideal)) :
    (TRef.of main_call0_v12 : TRef sig ⟨S1600000, .i1⟩).ofBuf (StableHlo.after srcPre W (Proc.devRef .tc main_call0_v12))
      = TakeMask.inBounds ((TRef.of main_arg15 : TRef sig ⟨S1600000, .i32⟩).ofBuf (W (Proc.devRef .tc main_arg15))) := by
  after_results_simp
  simp only [TRef.ofBuf, TRef.toBuf, cast_cast, cast_eq]
  unfold TakeMask.inBounds TakeMask.wrapCol
  rfl

/-- The gathered values' buffer after the first stretch. -/
theorem src_gather (W : Valuation τ sig (Elt Ideal)) :
    (TRef.of main_call0_v13 : TRef sig ⟨S1600000, .f32⟩).ofBuf (StableHlo.after srcPre W (Proc.devRef .tc main_call0_v13))
      = Host.gather gather_S50000_S1600000x1_S1600000_n_0_n_n_0_1_1 ((TRef.of main_v11 : TRef sig ⟨S50000, .f32⟩).ofBuf (W (Proc.devRef .tc main_v11)))
          (TakeMask.wrapCol ((TRef.of main_arg15 : TRef sig ⟨S1600000, .i32⟩).ofBuf (W (Proc.devRef .tc main_arg15)))) := by
  after_results_simp
  simp only [TRef.ofBuf, TRef.toBuf, cast_cast, cast_eq]
  unfold TakeMask.wrapCol
  rfl

/-- The fill's two operations leave the range test's buffer alone … -/
theorem src_fill_keeps_test (V : Valuation τ sig (Elt Ideal)) :
    StableHlo.after srcFill V (Proc.devRef .tc main_call0_v12) = V (Proc.devRef .tc main_call0_v12) := by
  after_results
/-- … and the gathered values' … -/
theorem src_fill_keeps_gather (V : Valuation τ sig (Elt Ideal)) :
    StableHlo.after srcFill V (Proc.devRef .tc main_call0_v13) = V (Proc.devRef .tc main_call0_v13) := by
  after_results
/-- … and leave the NaN word everywhere in the fill's buffer, whatever was there. -/
theorem src_fill (V : Valuation τ sig (Elt Ideal)) :
    (TRef.of main_call0_v14 : TRef sig ⟨S1600000, .f32⟩).ofBuf (StableHlo.after srcFill V (Proc.devRef .tc main_call0_v14)) = fillNaN := by
  after_results
  rfl

/-- The transports along a literal reference's type are identities. -/
theorem src_ofBuf_idx (v : main_arg15.ty.Contents (Elt Ideal)) : (TRef.of main_arg15 : TRef sig ⟨S1600000, .i32⟩).ofBuf v = v := rfl
theorem src_ofBuf_tbl (v : main_v11.ty.Contents (Elt Ideal)) : (TRef.of main_v11 : TRef sig ⟨S50000, .f32⟩).ofBuf v = v := rfl
theorem src_toBuf_out (v : (⟨S1600000, .f32⟩ : BufTy).Contents (Elt Ideal)) : (TRef.of main_v14 : TRef sig ⟨S1600000, .f32⟩).toBuf v = v := rfl

/-- The source take's operations, run from ANY buffer contents `W`, leave the filling take of the table at the index vector. -/
theorem srcTake_after (W : Valuation τ sig (Elt Ideal)) :
    StableHlo.after hostOps1_1 W (Proc.devRef .tc main_v14)
      = TakeMask.takeFill (W (Proc.devRef .tc main_v11)) (W (Proc.devRef .tc main_arg15)) fillNaN := by
  rw [src_ops_eq, after_snoc, after_append]
  rw [ternary_result]
  rw [src_fill_keeps_test, src_fill_keeps_gather, src_fill, src_inBounds W, src_gather W, src_toBuf_out, src_ofBuf_idx, src_ofBuf_tbl]
  rfl

/-! ## The destination take -/

/-- Its operations up to the gather: the wrapped index, the range test, the gathered values. -/
abbrev dstPre : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_arg16 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_arg16 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_arg16 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0),
    StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_),
    StableHlo.TRef.binary (.of main_v13 : StableHlo.TRef sig ⟨S50000, .f32⟩) (.of main_call1_v5 : StableHlo.TRef sig ⟨S1600000x1, .i32⟩) (.of main_call1_v13 : StableHlo.TRef sig ⟨S1600000, .f32⟩) (fun x i => Host.gather gather_S50000_S1600000x1_S1600000_n_0_n_n_0_1_1 x i) ]
/-- The two operations that make the fill. -/
abbrev dstFill : List (HloOp τ sig (Elt Ideal)) :=
  [ StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v14 : StableHlo.TRef sig ⟨S1600000, .f32⟩) (broadcastInDim S1600000 ![] bcast_S_S1600000) ]
/-- The closing select. -/
abbrev dstLast : HloOp τ sig (Elt Ideal) :=
  StableHlo.TRef.ternary (.of main_call1_v12 : StableHlo.TRef sig ⟨S1600000, .i1⟩) (.of main_call1_v13 : StableHlo.TRef sig ⟨S1600000, .f32⟩) (.of main_call1_v14 : StableHlo.TRef sig ⟨S1600000, .f32⟩) (.of main_v15 : StableHlo.TRef sig ⟨S1600000, .f32⟩) select

theorem dst_ops_eq : (hostOps1_2 : List (HloOp τ sig (Elt Ideal))) = (dstPre ++ dstFill) ++ [dstLast] := rfl

/-- The range test's buffer after the first stretch. -/
theorem dst_inBounds (W : Valuation τ sig (Elt Ideal)) :
    (TRef.of main_call1_v12 : TRef sig ⟨S1600000, .i1⟩).ofBuf (StableHlo.after dstPre W (Proc.devRef .tc main_call1_v12))
      = TakeMask.inBounds ((TRef.of main_arg16 : TRef sig ⟨S1600000, .i32⟩).ofBuf (W (Proc.devRef .tc main_arg16))) := by
  after_results_simp
  simp only [TRef.ofBuf, TRef.toBuf, cast_cast, cast_eq]
  unfold TakeMask.inBounds TakeMask.wrapCol
  rfl

/-- The gathered values' buffer after the first stretch. -/
theorem dst_gather (W : Valuation τ sig (Elt Ideal)) :
    (TRef.of main_call1_v13 : TRef sig ⟨S1600000, .f32⟩).ofBuf (StableHlo.after dstPre W (Proc.devRef .tc main_call1_v13))
      = Host.gather gather_S50000_S1600000x1_S1600000_n_0_n_n_0_1_1 ((TRef.of main_v13 : TRef sig ⟨S50000, .f32⟩).ofBuf (W (Proc.devRef .tc main_v13)))
          (TakeMask.wrapCol ((TRef.of main_arg16 : TRef sig ⟨S1600000, .i32⟩).ofBuf (W (Proc.devRef .tc main_arg16)))) := by
  after_results_simp
  simp only [TRef.ofBuf, TRef.toBuf, cast_cast, cast_eq]
  unfold TakeMask.wrapCol
  rfl

/-- The fill's two operations leave the range test's buffer alone … -/
theorem dst_fill_keeps_test (V : Valuation τ sig (Elt Ideal)) :
    StableHlo.after dstFill V (Proc.devRef .tc main_call1_v12) = V (Proc.devRef .tc main_call1_v12) := by
  after_results
/-- … and the gathered values' … -/
theorem dst_fill_keeps_gather (V : Valuation τ sig (Elt Ideal)) :
    StableHlo.after dstFill V (Proc.devRef .tc main_call1_v13) = V (Proc.devRef .tc main_call1_v13) := by
  after_results
/-- … and leave the NaN word everywhere in the fill's buffer, whatever was there. -/
theorem dst_fill (V : Valuation τ sig (Elt Ideal)) :
    (TRef.of main_call1_v14 : TRef sig ⟨S1600000, .f32⟩).ofBuf (StableHlo.after dstFill V (Proc.devRef .tc main_call1_v14)) = fillNaN := by
  after_results
  rfl

/-- The transports along a literal reference's type are identities. -/
theorem dst_ofBuf_idx (v : main_arg16.ty.Contents (Elt Ideal)) : (TRef.of main_arg16 : TRef sig ⟨S1600000, .i32⟩).ofBuf v = v := rfl
theorem dst_ofBuf_tbl (v : main_v13.ty.Contents (Elt Ideal)) : (TRef.of main_v13 : TRef sig ⟨S50000, .f32⟩).ofBuf v = v := rfl
theorem dst_toBuf_out (v : (⟨S1600000, .f32⟩ : BufTy).Contents (Elt Ideal)) : (TRef.of main_v15 : TRef sig ⟨S1600000, .f32⟩).toBuf v = v := rfl

/-- The destination take's, likewise. -/
theorem dstTake_after (W : Valuation τ sig (Elt Ideal)) :
    StableHlo.after hostOps1_2 W (Proc.devRef .tc main_v15)
      = TakeMask.takeFill (W (Proc.devRef .tc main_v13)) (W (Proc.devRef .tc main_arg16)) fillNaN := by
  rw [dst_ops_eq, after_snoc, after_append]
  rw [ternary_result]
  rw [dst_fill_keeps_test, dst_fill_keeps_gather, dst_fill, dst_inBounds W, dst_gather W, dst_toBuf_out, dst_ofBuf_idx, dst_ofBuf_tbl]
  rfl

end Cert.KernelIdeal.TakeAfter

end
-- ==== Proof.HostFold.lean ====
/-
  What each stretch of host operations between the two kernel regions leaves alone.

  @main is a fold of buffer contents: a stretch of host operations rewrites the buffers its operations write and no
  other; a kernel region rewrites its windows' arrays and no other.  Listed per stretch are the buffers it writes;
  a buffer outside the list holds after the stretch what it held before.  Chained, an argument array no stretch and
  no region writes holds its launch contents at every boundary.
-/
import proofs.«405104_j37160057045562_3_alg».proof.Proof.Gen.KernelIdeal.Frame
import Idealize.ShloMosaic.Lib.StableHlo.Run

set_option maxRecDepth 16384

noncomputable section

namespace Cert.KernelIdeal.HostFold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- Every operation of a literal stretch writes one buffer, and that buffer is in the stretch's list. -/
macro "writes_in_list" : tactic =>
  `(tactic| (simp only [List.Forall]
             repeat' apply And.intro
             all_goals (simp only [StableHlo.nullary_writes, StableHlo.unary_writes, StableHlo.binary_writes,
               StableHlo.ternary_writes, StableHlo.quaternary_writes, StableHlo.reshape_writes, StableHlo.binaryIndexed_writes,
               StableHlo.unaryIndexed_writes, StableHlo.nary_writes, Finset.singleton_subset_iff, List.mem_toFinset]
                        exact List.mem_map_of_mem (by decide))))

/-- The buffers the weight-fusing stretch before the node kernel writes. -/
abbrev hostOps0_W : List (Ref sig .tc) :=
  [main_v0, main_v1, main_v2, main_cst, main_v3, main_v4, main_v5, main_v6, main_v7, main_v8]
theorem hostOps0_writes : (hostOps0 : List (HloOp τ sig (Elt F))).Forall fun op =>
    op.writes ⊆ (hostOps0_W.map (Proc.devRef (τ := τ) .tc)).toFinset := by writes_in_list

/-- The buffers the column-splitting stretch after the node kernel writes. -/
abbrev hostOps1_W : List (Ref sig .tc) := [main_v10, main_v11, main_v12, main_v13]
theorem hostOps1_writes : (hostOps1 : List (HloOp τ sig (Elt F))).Forall fun op =>
    op.writes ⊆ (hostOps1_W.map (Proc.devRef (τ := τ) .tc)).toFinset := by writes_in_list

/-- The buffers the source take writes. -/
abbrev hostOps1_1_W : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_cst, main_call0_v14, main_v14]
theorem hostOps1_1_writes : (hostOps1_1 : List (HloOp τ sig (Elt F))).Forall fun op =>
    op.writes ⊆ (hostOps1_1_W.map (Proc.devRef (τ := τ) .tc)).toFinset := by writes_in_list

/-- The buffers the destination take writes. -/
abbrev hostOps1_2_W : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_cst, main_call1_v14, main_v15]
theorem hostOps1_2_writes : (hostOps1_2 : List (HloOp τ sig (Elt F))).Forall fun op =>
    op.writes ⊆ (hostOps1_2_W.map (Proc.devRef (τ := τ) .tc)).toFinset := by writes_in_list

/-- The buffers the stretch that forms the edge kernel's precomputed row writes. -/
abbrev hostOps1_3_W : List (Ref sig .tc) :=
  [main_cst_0, main_v16, main_v17, main_cst_1, main_v18, main_v19, main_v20, main_v21, main_v22, main_v23, main_v24, main_v25,
   main_v26, main_v27, main_v28]
theorem hostOps1_3_writes : (hostOps1_3 : List (HloOp τ sig (Elt F))).Forall fun op =>
    op.writes ⊆ (hostOps1_3_W.map (Proc.devRef (τ := τ) .tc)).toFinset := by writes_in_list

/-! ## What each boundary keeps -/

theorem W1_of (c : Dev nD) (r : Ref sig .tc) (h : r ∉ hostOps0_W) : W1 m ρ c (Proc.devRef .tc r) = m ((c : Thread nD τ).loc r) :=
  StableHlo.after_of_writes_sub hostOps0 _ hostOps0_writes h
theorem W2_of (c : Dev nD) (r : Ref sig .tc) (hb : ∀ w, Pipeline.arrRef spec0 w ≠ r) :
    W2 m ρ c (Proc.devRef .tc r) = W1 m ρ c (Proc.devRef .tc r) := W2_of_ne m ρ c r hb
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h

/-! ## A buffer nothing writes, at each boundary -/

theorem W3_kept (c : Dev nD) (r : Ref sig .tc) (h0 : r ∉ hostOps0_W) (hr : ∀ w, Pipeline.arrRef spec0 w ≠ r) (h1 : r ∉ hostOps1_W) :
    W3 m ρ c (Proc.devRef .tc r) = m ((c : Thread nD τ).loc r) :=
  (W3_of m ρ c r h1).trans ((W2_of m ρ c r hr).trans (W1_of m ρ c r h0))
theorem W4_kept (c : Dev nD) (r : Ref sig .tc) (h0 : r ∉ hostOps0_W) (hr : ∀ w, Pipeline.arrRef spec0 w ≠ r) (h1 : r ∉ hostOps1_W)
    (h2 : r ∉ hostOps1_1_W) : W4 m ρ c (Proc.devRef .tc r) = m ((c : Thread nD τ).loc r) :=
  (W4_of m ρ c r h2).trans (W3_kept m ρ c r h0 hr h1)
theorem W5_kept (c : Dev nD) (r : Ref sig .tc) (h0 : r ∉ hostOps0_W) (hr : ∀ w, Pipeline.arrRef spec0 w ≠ r) (h1 : r ∉ hostOps1_W)
    (h2 : r ∉ hostOps1_1_W) (h3 : r ∉ hostOps1_2_W) : W5 m ρ c (Proc.devRef .tc r) = m ((c : Thread nD τ).loc r) :=
  (W5_of m ρ c r h3).trans (W4_kept m ρ c r h0 hr h1 h2)
theorem W6_kept (c : Dev nD) (r : Ref sig .tc) (h0 : r ∉ hostOps0_W) (hr : ∀ w, Pipeline.arrRef spec0 w ≠ r) (h1 : r ∉ hostOps1_W)
    (h2 : r ∉ hostOps1_1_W) (h3 : r ∉ hostOps1_2_W) (h4 : r ∉ hostOps1_3_W) : W6 m ρ c (Proc.devRef .tc r) = m ((c : Thread nD τ).loc r) :=
  (W6_of m ρ c r h4).trans (W5_kept m ρ c r h0 hr h1 h2 h3)

end Cert.KernelIdeal.HostFold

end
-- ==== Proof.FusedWeights.lean ====
/-
  The fused node perceptron's two columns are the source and the destination perceptron.

  The kernel's program builds, on the host, ONE perceptron of 256 hidden units from the two perceptrons of 128: the
  first-layer weights side by side, the first-layer biases end to end, the second layer block diagonal (the source
  column over a zero column, beside a zero column over the destination column), the second-layer biases side by side.
  Each fused array is read at an index, piece by piece; then column 0 of the fused perceptron has weight zero on the
  last 128 hidden units and column 1 on the first 128, and a perceptron whose second layer vanishes on half of its
  hidden units is the perceptron over the other half.
-/
import proofs.«405104_j37160057045562_3_alg».proof.KernelIdeal
import proofs.«405104_j37160057045562_3_alg».proof.Proof.Gen.KernelIdeal
import proofs.«405104_j37160057045562_3_alg».proof.Proof.Spec
import proofs.«405104_j37160057045562_3_alg».proof.Proof.Algebra
import Idealize.ShloMosaic.Lib.ValueIdx
import Idealize.ShloMosaic.Lib.Pipeline.Value
import Idealize.ShloMosaic.PureOps.Ideal.Laws

noncomputable section

open scoped BigOperators

namespace Cert.KernelIdeal.FusedWeights

open Idealize.ShloMosaic Idealize.ShloMosaic.ValueIdx Cert.KernelIdeal Cert.KernelIdeal.Facts₀ Cert.KernelIdeal.Facts

variable (X : S50000x256.Idx → EReal) (ws1 wd1 : S256x128.Idx → EReal) (bs1 bd1 : S128.Idx → EReal)
  (ws2 wd2 : S128x1.Idx → EReal) (bs2 bd2 : S1.Idx → EReal)

/-- first-layer weights side by side: [256, 256] -/
abbrev w1cat : S256x256.Idx → EReal := concatenate S256x256 1 [⟨S256x128, ws1⟩, ⟨S256x128, wd1⟩] concatenates_S256x128_S256x128_S256x256_d1
/-- first-layer biases end to end, as a row: [1, 256] -/
abbrev b1cat : S1x256.Idx → EReal := shapeCast S1x256 (concatenate S256 0 [⟨S128, bs1⟩, ⟨S128, bd1⟩] concatenates_S128_S128_S256_d0) shapeCasts_S256_S1x256
/-- the zero column [128, 1] -/
abbrev zcol : S128x1.Idx → EReal := broadcastInDim S128x1 ![] bcast_S_S128x1 (constant (F := Ideal) S_ .f32 0x00000000#32)
/-- second layer, block diagonal: [256, 2] -/
abbrev w2cat : S256x2.Idx → EReal := concatenate S256x2 0 [⟨S128x2, concatenate S128x2 1 [⟨S128x1, ws2⟩, ⟨S128x1, zcol⟩] concatenates_S128x1_S128x1_S128x2_d1⟩, ⟨S128x2, concatenate S128x2 1 [⟨S128x1, zcol⟩, ⟨S128x1, wd2⟩] concatenates_S128x1_S128x1_S128x2_d1⟩] concatenates_S128x2_S128x2_S256x2_d0
/-- second-layer biases as a row: [1, 2] -/
abbrev b2cat : S1x2.Idx → EReal := shapeCast S1x2 (concatenate S2 0 [⟨S1, bs2⟩, ⟨S1, bd2⟩] concatenates_S1_S1_S2_d0) shapeCasts_S2_S1x2

/-! ## The fused arrays read at an index -/

/-- The first-layer weights of hidden unit `k` of the first half are the source perceptron's. -/
theorem w1cat_lo (d : Fin 256) (k : Fin 128) : w1cat ws1 wd1 (ix2 d (Fin.castAdd 128 k)) = ws1 (ix2 d k) :=
  concatenate_pair_apply_left (t := S256x256) (s₁ := S256x128) (s₂ := S256x128) (1 : Fin 2) ws1 wd1 _ _ rfl (ix2 d k) (by
    intro b
    match b with
    | ⟨0, _⟩ => rfl
    | ⟨1, _⟩ => rfl)

/-- … and those of hidden unit `128 + k` are the destination perceptron's. -/
theorem w1cat_hi (d : Fin 256) (k : Fin 128) : w1cat ws1 wd1 (ix2 d (Fin.natAdd 128 k)) = wd1 (ix2 d k) :=
  concatenate_pair_apply_right (t := S256x256) (s₁ := S256x128) (s₂ := S256x128) (1 : Fin 2) ws1 wd1 _ _ rfl rfl (ix2 d k) (by
    intro b hb
    match b with
    | ⟨0, _⟩ => rfl
    | ⟨1, _⟩ => exact absurd rfl hb) (by
    show k.val + 128 = 128 + k.val; omega)

/-- The bias row at column `k` of the first half is the source bias … -/
theorem b1cat_lo (k : Fin 128) : b1cat bs1 bd1 (ix2 (0 : Fin 1) (Fin.castAdd 128 k)) = bs1 (ix1 k) := by
  refine (shapeCast_apply _ shapeCasts_S256_S1x256 (ix2 (0 : Fin 1) (Fin.castAdd 128 k)) (ix1 (Fin.castAdd 128 k)) (by
    rw [Shape.rowMajor_val_two, Shape.rowMajor_val_one]; show k.val = 0 * 256 + k.val; omega)).trans ?_
  exact concatenate_pair_apply_left (t := S256) (s₁ := S128) (s₂ := S128) (0 : Fin 1) bs1 bd1 _ _ rfl (ix1 k) (by
    intro b
    match b with
    | ⟨0, _⟩ => rfl)

/-- … and at column `128 + k` the destination bias. -/
theorem b1cat_hi (k : Fin 128) : b1cat bs1 bd1 (ix2 (0 : Fin 1) (Fin.natAdd 128 k)) = bd1 (ix1 k) := by
  refine (shapeCast_apply _ shapeCasts_S256_S1x256 (ix2 (0 : Fin 1) (Fin.natAdd 128 k)) (ix1 (Fin.natAdd 128 k)) (by
    rw [Shape.rowMajor_val_two, Shape.rowMajor_val_one]; show 128 + k.val = 0 * 256 + (128 + k.val); omega)).trans ?_
  exact concatenate_pair_apply_right (t := S256) (s₁ := S128) (s₂ := S128) (0 : Fin 1) bs1 bd1 _ _ rfl rfl (ix1 k) (by
    intro b hb
    match b with
    | ⟨0, _⟩ => exact absurd rfl hb) (by
    show k.val + 128 = 128 + k.val; omega)

/-- The zero column is zero everywhere: a broadcast of the word 0x00000000. -/
theorem zcol_apply (i : S128x1.Idx) : zcol i = 0 := by
  refine (broadcastInDim_apply _ bcast_S_S128x1 _ i ix0 (fun a => a.elim0)).trans ?_
  exact Ideal.ofBits_zero_f32

/-- Second layer, column 0: the source column on the first half of the hidden units … -/
theorem w2cat_lo_col0 (k : Fin 128) : w2cat ws2 wd2 (ix2 (Fin.castAdd 128 k) (0 : Fin 2)) = ws2 (ix2 k (0 : Fin 1)) := by
  refine (concatenate_pair_apply_left (t := S256x2) (s₁ := S128x2) (s₂ := S128x2) (0 : Fin 2) _ _ _ _ rfl (ix2 k (0 : Fin 2)) (by
    intro b
    match b with
    | ⟨0, _⟩ => rfl
    | ⟨1, _⟩ => rfl)).trans ?_
  exact concatenate_pair_apply_left (t := S128x2) (s₁ := S128x1) (s₂ := S128x1) (1 : Fin 2) ws2 zcol _ _ rfl (ix2 k (0 : Fin 1)) (by
    intro b
    match b with
    | ⟨0, _⟩ => rfl
    | ⟨1, _⟩ => rfl)

/-- … and zero on the second half. -/
theorem w2cat_hi_col0 (k : Fin 128) : w2cat ws2 wd2 (ix2 (Fin.natAdd 128 k) (0 : Fin 2)) = 0 := by
  refine (concatenate_pair_apply_right (t := S256x2) (s₁ := S128x2) (s₂ := S128x2) (0 : Fin 2) _ _ _ _ rfl rfl (ix2 k (0 : Fin 2)) (by
    intro b hb
    match b with
    | ⟨0, _⟩ => exact absurd rfl hb
    | ⟨1, _⟩ => rfl) (by
    show k.val + 128 = 128 + k.val; omega)).trans ?_
  refine (concatenate_pair_apply_left (t := S128x2) (s₁ := S128x1) (s₂ := S128x1) (1 : Fin 2) zcol wd2 _ _ rfl (ix2 k (0 : Fin 1)) (by
    intro b
    match b with
    | ⟨0, _⟩ => rfl
    | ⟨1, _⟩ => rfl)).trans ?_
  exact zcol_apply _

/-- Second layer, column 1: zero on the first half of the hidden units … -/
theorem w2cat_lo_col1 (k : Fin 128) : w2cat ws2 wd2 (ix2 (Fin.castAdd 128 k) (1 : Fin 2)) = 0 := by
  refine (concatenate_pair_apply_left (t := S256x2) (s₁ := S128x2) (s₂ := S128x2) (0 : Fin 2) _ _ _ _ rfl (ix2 k (1 : Fin 2)) (by
    intro b
    match b with
    | ⟨0, _⟩ => rfl
    | ⟨1, _⟩ => rfl)).trans ?_
  refine (concatenate_pair_apply_right (t := S128x2) (s₁ := S128x1) (s₂ := S128x1) (1 : Fin 2) ws2 zcol _ _ rfl rfl (ix2 k (0 : Fin 1)) (by
    intro b hb
    match b with
    | ⟨0, _⟩ => rfl
    | ⟨1, _⟩ => exact absurd rfl hb) rfl).trans ?_
  exact zcol_apply _

/-- … and the destination column on the second half. -/
theorem w2cat_hi_col1 (k : Fin 128) : w2cat ws2 wd2 (ix2 (Fin.natAdd 128 k) (1 : Fin 2)) = wd2 (ix2 k (0 : Fin 1)) := by
  refine (concatenate_pair_apply_right (t := S256x2) (s₁ := S128x2) (s₂ := S128x2) (0 : Fin 2) _ _ _ _ rfl rfl (ix2 k (1 : Fin 2)) (by
    intro b hb
    match b with
    | ⟨0, _⟩ => exact absurd rfl hb
    | ⟨1, _⟩ => rfl) (by
    show k.val + 128 = 128 + k.val; omega)).trans ?_
  exact concatenate_pair_apply_right (t := S128x2) (s₁ := S128x1) (s₂ := S128x1) (1 : Fin 2) zcol wd2 _ _ rfl rfl (ix2 k (0 : Fin 1)) (by
    intro b hb
    match b with
    | ⟨0, _⟩ => rfl
    | ⟨1, _⟩ => exact absurd rfl hb) rfl

/-- The second-layer bias row: the source bias at column 0 … -/
theorem b2cat_col0 : b2cat bs2 bd2 (ix2 (0 : Fin 1) (0 : Fin 2)) = bs2 (ix1 (0 : Fin 1)) := by
  refine (shapeCast_apply _ shapeCasts_S2_S1x2 (ix2 (0 : Fin 1) (0 : Fin 2)) (ix1 (0 : Fin 2)) (by
    rw [Shape.rowMajor_val_two, Shape.rowMajor_val_one]; rfl)).trans ?_
  exact concatenate_pair_apply_left (t := S2) (s₁ := S1) (s₂ := S1) (0 : Fin 1) bs2 bd2 _ _ rfl (ix1 (0 : Fin 1)) (by
    intro b
    match b with
    | ⟨0, _⟩ => rfl)

/-- … and the destination bias at column 1. -/
theorem b2cat_col1 : b2cat bs2 bd2 (ix2 (0 : Fin 1) (1 : Fin 2)) = bd2 (ix1 (0 : Fin 1)) := by
  refine (shapeCast_apply _ shapeCasts_S2_S1x2 (ix2 (0 : Fin 1) (1 : Fin 2)) (ix1 (1 : Fin 2)) (by
    rw [Shape.rowMajor_val_two, Shape.rowMajor_val_one]; rfl)).trans ?_
  exact concatenate_pair_apply_right (t := S2) (s₁ := S1) (s₂ := S1) (0 : Fin 1) bs2 bd2 _ _ rfl rfl (ix1 (0 : Fin 1)) (by
    intro b hb
    match b with
    | ⟨0, _⟩ => exact absurd rfl hb) rfl

/-! ## The two columns of the fused perceptron -/

/-- Column 0 of the fused perceptron is the source perceptron: its second layer vanishes on the last 128 hidden units,
    and on the first 128 every weight and bias is the source's. -/
theorem fused_src (n : Fin 50000) :
    Cert.Spec.nodeOut X (w1cat ws1 wd1) (b1cat bs1 bd1) (w2cat ws2 wd2) (b2cat bs2 bd2) n (0 : Fin 2)
      = Cert.Spec.mlp (fun d : Fin 256 => X (ix2 n d)) (fun (d : Fin 256) (k : Fin 128) => ws1 (ix2 d k)) (fun k : Fin 128 => bs1 (ix1 k))
          (fun k : Fin 128 => ws2 (ix2 k (0 : Fin 1))) (bs2 (ix1 (0 : Fin 1))) := by
  unfold Cert.Spec.nodeOut
  refine (Cert.Spec.mlp_last_zero (H := 128) _ _ _ _ _ (fun k => w2cat_hi_col0 ws2 wd2 k)).trans ?_
  show Cert.Spec.mlp (fun d : Fin 256 => X (ix2 n d)) (fun (d : Fin 256) (k : Fin 128) => w1cat ws1 wd1 (ix2 d (Fin.castAdd 128 k)))
      (fun k : Fin 128 => b1cat bs1 bd1 (ix2 (0 : Fin 1) (Fin.castAdd 128 k)))
      (fun k : Fin 128 => w2cat ws2 wd2 (ix2 (Fin.castAdd 128 k) (0 : Fin 2))) (b2cat bs2 bd2 (ix2 (0 : Fin 1) (0 : Fin 2))) = _
  simp only [w1cat_lo, b1cat_lo, w2cat_lo_col0, b2cat_col0]

/-- Column 1 is the destination perceptron: its second layer vanishes on the first 128 hidden units, and on the last 128
    every weight and bias is the destination's. -/
theorem fused_dst (n : Fin 50000) :
    Cert.Spec.nodeOut X (w1cat ws1 wd1) (b1cat bs1 bd1) (w2cat ws2 wd2) (b2cat bs2 bd2) n (1 : Fin 2)
      = Cert.Spec.mlp (fun d : Fin 256 => X (ix2 n d)) (fun (d : Fin 256) (k : Fin 128) => wd1 (ix2 d k)) (fun k : Fin 128 => bd1 (ix1 k))
          (fun k : Fin 128 => wd2 (ix2 k (0 : Fin 1))) (bd2 (ix1 (0 : Fin 1))) := by
  unfold Cert.Spec.nodeOut
  refine (Cert.Spec.mlp_first_zero (H := 128) _ _ _ _ _ (fun k => w2cat_lo_col1 ws2 wd2 k)).trans ?_
  show Cert.Spec.mlp (fun d : Fin 256 => X (ix2 n d)) (fun (d : Fin 256) (k : Fin 128) => w1cat ws1 wd1 (ix2 d (Fin.natAdd 128 k)))
      (fun k : Fin 128 => b1cat bs1 bd1 (ix2 (0 : Fin 1) (Fin.natAdd 128 k)))
      (fun k : Fin 128 => w2cat ws2 wd2 (ix2 (Fin.natAdd 128 k) (1 : Fin 2))) (b2cat bs2 bd2 (ix2 (0 : Fin 1) (1 : Fin 2))) = _
  simp only [w1cat_hi, b1cat_hi, w2cat_hi_col1, b2cat_col1]

end Cert.KernelIdeal.FusedWeights

end
-- ==== Proof.NodeValue.lean ====
/-
  What the fused node perceptron's region leaves in its [50000, 2] output array, for arbitrary contents of the arrays it
  reads: row n, column j is the specification's two-layer perceptron of row n of the features.

  The road: (1) each of the two products, into a zero accumulator, read at an entry, is the sum over the 256 contracted
  positions of left row times right column; (2) so the value one grid point stores at (p, q) of its [10000, 2] block is
  the perceptron of row p of its feature block; (3) the feature block and the output block of grid point t are rows
  10000·t … 10000·t + 9999 of their arrays, and the four weight blocks are their whole arrays, so point t writes back block
  t of one whole-array function; (4) the five blocks cover the 50000 rows (row r lies in block r / 10000), so the array
  ends holding that function.
-/
import proofs.«405104_j37160057045562_3_alg».proof.Proof.Gen.KernelIdeal.Frame
import proofs.«405104_j37160057045562_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.NodeValue

open Idealize.ShloMosaic Idealize.ShloMosaic.TcCoe Idealize.SL.Sem Idealize.ShloMosaic.ValueIdx
open Cert.KernelIdeal Cert.KernelIdeal.Gen

/-! ## The two products of the node perceptron, read at an entry -/

theorem lhs_first_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_first_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_first_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_first_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The first layer's product into the zero accumulator: entry (p, k) is the row p of the left factor against column k
    of the right one. -/
theorem first_matmul_apply (a : FVec Ideal S10000x256 .f32) (b : FVec Ideal S256x256 .f32) (p : Fin 10000) (k : Fin 256) :
    matmul (F := Ideal) dot_S10000x256_S256x256_S10000x256_1_0_0_1_n_n none a b (constant (F := Ideal) S10000x256 .f32 0x00000000#32) (ix2 p k)
      = ∑ d : Fin 256, a (ix2 p d) * b (ix2 d k) := by
  show FloatOps.matmul (F := Ideal) dot_S10000x256_S256x256_S10000x256_1_0_0_1_n_n none a b (constant (F := Ideal) S10000x256 .f32 0x00000000#32) (ix2 p k) = _
  rw [Ideal.matmul_constant_zero_apply, ← Equiv.sum_comp (contrEquiv1 dot_S10000x256_S256x256_S10000x256_1_0_0_1_n_n 256 rfl rfl).symm]
  refine Finset.sum_congr rfl fun d _ => ?_
  have hd := contrEquiv1_symm_val dot_S10000x256_S256x256_S10000x256_1_0_0_1_n_n 256 rfl rfl d
  have el : dot_S10000x256_S256x256_S10000x256_1_0_0_1_n_n.lhsIdx (ix2 p k) ((contrEquiv1 dot_S10000x256_S256x256_S10000x256_1_0_0_1_n_n 256 rfl rfl).symm d) = ix2 p d := funext fun ax => Fin.ext (by
    match ax with
    | ⟨0, _⟩ => exact lhs_first_0 _ _
    | ⟨1, _⟩ => exact (lhs_first_1 _ _).trans hd)
  have er : dot_S10000x256_S256x256_S10000x256_1_0_0_1_n_n.rhsIdx (ix2 p k) ((contrEquiv1 dot_S10000x256_S256x256_S10000x256_1_0_0_1_n_n 256 rfl rfl).symm d) = ix2 d k := funext fun ax => Fin.ext (by
    match ax with
    | ⟨0, _⟩ => exact (rhs_first_0 _ _).trans hd
    | ⟨1, _⟩ => exact rhs_first_1 _ _)
  rw [el, er]

theorem lhs_second_0 (i : S10000x2.Idx) (q : dot_S10000x256_S256x2_S10000x2_1_0_0_1_n_n.contr.Idx) :
    (dot_S10000x256_S256x2_S10000x2_1_0_0_1_n_n.lhsIdx i q 0).val = (i 0).val := by
  unfold DotDims.lhsIdx
  rw [dif_neg (show ¬(0 : Fin S10000x256.rank) ∈ dot_S10000x256_S256x2_S10000x2_1_0_0_1_n_n.lhsBatch by decide), dif_pos (show (0 : Fin S10000x256.rank) ∈ dot_S10000x256_S256x2_S10000x2_1_0_0_1_n_n.lhsNonContracting by decide)]
  rfl
theorem lhs_second_1 (i : S10000x2.Idx) (q : dot_S10000x256_S256x2_S10000x2_1_0_0_1_n_n.contr.Idx) :
    (dot_S10000x256_S256x2_S10000x2_1_0_0_1_n_n.lhsIdx i q 1).val = (q ⟨0, by decide⟩).val :=
  dot_S10000x256_S256x2_S10000x2_1_0_0_1_n_n.lhsIdx_val_of_single rfl i q
theorem rhs_second_0 (i : S10000x2.Idx) (q : dot_S10000x256_S256x2_S10000x2_1_0_0_1_n_n.contr.Idx) :
    (dot_S10000x256_S256x2_S10000x2_1_0_0_1_n_n.rhsIdx i q 0).val = (q ⟨0, by decide⟩).val :=
  dot_S10000x256_S256x2_S10000x2_1_0_0_1_n_n.rhsIdx_val_of_single rfl i q
theorem rhs_second_1 (i : S10000x2.Idx) (q : dot_S10000x256_S256x2_S10000x2_1_0_0_1_n_n.contr.Idx) :
    (dot_S10000x256_S256x2_S10000x2_1_0_0_1_n_n.rhsIdx i q 1).val = (i 1).val := by
  unfold DotDims.rhsIdx
  rw [dif_neg (show ¬(1 : Fin S256x2.rank) ∈ dot_S10000x256_S256x2_S10000x2_1_0_0_1_n_n.rhsBatch by decide), dif_pos (show (1 : Fin S256x2.rank) ∈ dot_S10000x256_S256x2_S10000x2_1_0_0_1_n_n.rhsNonContracting by decide)]
  rfl

/-- The second layer's product into the zero accumulator: entry (p, q) is row p of the hidden block against column q of
    the second layer's weights. -/
theorem second_matmul_apply (a : FVec Ideal S10000x256 .f32) (b : FVec Ideal S256x2 .f32) (p : Fin 10000) (q : Fin 2) :
    matmul (F := Ideal) dot_S10000x256_S256x2_S10000x2_1_0_0_1_n_n none a b (constant (F := Ideal) S10000x2 .f32 0x00000000#32) (ix2 p q)
      = ∑ k : Fin 256, a (ix2 p k) * b (ix2 k q) := by
  show FloatOps.matmul (F := Ideal) dot_S10000x256_S256x2_S10000x2_1_0_0_1_n_n none a b (constant (F := Ideal) S10000x2 .f32 0x00000000#32) (ix2 p q) = _
  rw [Ideal.matmul_constant_zero_apply, ← Equiv.sum_comp (contrEquiv1 dot_S10000x256_S256x2_S10000x2_1_0_0_1_n_n 256 rfl rfl).symm]
  refine Finset.sum_congr rfl fun k _ => ?_
  have hk := contrEquiv1_symm_val dot_S10000x256_S256x2_S10000x2_1_0_0_1_n_n 256 rfl rfl k
  have el : dot_S10000x256_S256x2_S10000x2_1_0_0_1_n_n.lhsIdx (ix2 p q) ((contrEquiv1 dot_S10000x256_S256x2_S10000x2_1_0_0_1_n_n 256 rfl rfl).symm k) = ix2 p k := funext fun ax => Fin.ext (by
    match ax with
    | ⟨0, _⟩ => exact lhs_second_0 _ _
    | ⟨1, _⟩ => exact (lhs_second_1 _ _).trans hk)
  have er : dot_S10000x256_S256x2_S10000x2_1_0_0_1_n_n.rhsIdx (ix2 p q) ((contrEquiv1 dot_S10000x256_S256x2_S10000x2_1_0_0_1_n_n 256 rfl rfl).symm k) = ix2 k q := funext fun ax => Fin.ext (by
    match ax with
    | ⟨0, _⟩ => exact (rhs_second_0 _ _).trans hk
    | ⟨1, _⟩ => exact rhs_second_1 _ _)
  rw [el, er]

/-! ## The block's payload at an entry -/

/-- The leaky rectifier as the block computes it on one value. -/
def leakyVal (h : EReal) : EReal :=
  Scalar.select (Ideal.cmp .ogt h (Ideal.ofBits .f32 0x00000000#32)) h (Ideal.ofBits .f32 0x3C23D70A#32 * h)

/-- What one grid point stores at row p, column q of its output block: row p of the input block through the two layers. -/
theorem payload_apply (x0 : Vec Ideal S10000x256 .f32) (x1 : Vec Ideal S256x256 .f32) (x2 : Vec Ideal S1x256 .f32)
    (x3 : Vec Ideal S256x2 .f32) (x4 : Vec Ideal S1x2 .f32) (p : Fin 10000) (q : Fin 2) :
    k0_pay1 x0 x1 x2 x3 x4 (ix2 p q)
      = (∑ k : Fin 256, leakyVal ((∑ d : Fin 256, x0 (ix2 p d) * x1 (ix2 d k)) + x2 (ix2 (0 : Fin 1) k)) * x3 (ix2 k q))
          + x4 (ix2 (0 : Fin 1) q) := by
  unfold k0_pay1
  rw [shapeCast_self, shapeCast_self, shapeCast_self, shapeCast_self]
  rw [addf_apply, second_matmul_apply, broadcastTo_1b_ab_apply]
  congr 1
  refine Finset.sum_congr rfl fun k _ => ?_
  congr 1
  rw [select_apply, cmpf_apply, mulf_apply, broadcast_apply, broadcast_apply, addf_apply, first_matmul_apply,
    broadcastTo_1b_ab_apply]
  rfl

/-! ## From one grid point's block to the whole array -/

variable (V : (c : Dev nD) → (b : Ref sig .tc) → Buf (Elt Ideal) ((c : Thread nD τ).loc b))

theorem zero_offsets : (![0, 0] : Fin 2 → Nat) = fun _ => 0 := funext fun a => by fin_cases a <;> rfl

/-- Row n, column j of the perceptron's output, as a function of the five arrays the region reads. -/
def nodeVal (X : S50000x256.Idx → EReal) (W1 : S256x256.Idx → EReal) (B1 : S1x256.Idx → EReal) (W2 : S256x2.Idx → EReal)
    (B2 : S1x2.Idx → EReal) (n : Fin 50000) (j : Fin 2) : EReal :=
  (∑ k : Fin 256, leakyVal ((∑ d : Fin 256, X (ix2 n d) * W1 (ix2 d k)) + B1 (ix2 (0 : Fin 1) k)) * W2 (ix2 k j))
    + B2 (ix2 (0 : Fin 1) j)

/-- The whole [50000, 2] output array as one function of the arrays the region finds. -/
def wholeOut (c : Dev nD) : S50000x2.Idx → EReal := fun i =>
  nodeVal (V c main_arg0) (V c main_v0) (V c main_v2) (V c main_v6) (V c main_v8) ⟨(i 0).val, (i 0).isLt⟩ ⟨(i 1).val, (i 1).isLt⟩

/-- The printed index maps over the five grid points: the row blocks of the features and of the output sit at the grid
    point's own position, the four weight arrays are one block each. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 10000) : 10000 * t.val + p.val < 50000 := by
  have h1 : t.val < 5 := lt_of_lt_of_eq t.isLt (N_0 : cfg0.N = 5)
  have h2 := p.isLt
  omega

/-- The feature block at point t is rows 10000·t … 10000·t + 9999 of the feature array. -/
theorem features_block_apply (c : Dev nD) (t : Fin cfg0.N) (p : Fin 10000) (d : Fin 256) :
    (iblk0 V c 0 t : Vec Ideal S10000x256 .f32) (ix2 p d)
      = (V c main_arg0 : S50000x256.Idx → EReal) (ix2 ⟨10000 * t.val + p.val, row_lt t p⟩ d) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 256 + 1 * d.val = d.val; rw [e1]; omega

/-- The first layer's weight block at any point is the whole weight array. -/
theorem w1_block_apply (c : Dev nD) (t : Fin cfg0.N) (d : Fin 256) (k : Fin 256) :
    (iblk0 V c 1 t : Vec Ideal S256x256 .f32) (ix2 d k) = (V c main_v0 : S256x256.Idx → EReal) (ix2 d k) := by
  obtain ⟨-, -, e0, e1, -⟩ := index_facts t
  unfold iblk0
  rw [View.read_apply]
  show V c main_v0 _ = V c main_v0 _
  congr 1
  funext a
  apply Fin.ext
  match a with
  | ⟨0, _⟩ => show win0_1.index t (0 : Fin 2) * 256 + 1 * d.val = d.val; rw [e0]; omega
  | ⟨1, _⟩ => show win0_1.index t (1 : Fin 2) * 256 + 1 * k.val = k.val; rw [e1]; omega

/-- The first layer's bias block at any point is the whole bias row. -/
theorem b1_block_apply (c : Dev nD) (t : Fin cfg0.N) (k : Fin 256) :
    (iblk0 V c 2 t : Vec Ideal S1x256 .f32) (ix2 (0 : Fin 1) k) = (V c main_v2 : S1x256.Idx → EReal) (ix2 (0 : Fin 1) k) := by
  obtain ⟨-, -, -, -, e0, e1, -⟩ := index_facts t
  unfold iblk0
  rw [View.read_apply]
  show V c main_v2 _ = V c main_v2 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * k.val = k.val; rw [e1]; omega

/-- The second layer's weight block at any point is the whole weight array. -/
theorem w2_block_apply (c : Dev nD) (t : Fin cfg0.N) (k : Fin 256) (q : Fin 2) :
    (iblk0 V c 3 t : Vec Ideal S256x2 .f32) (ix2 k q) = (V c main_v6 : S256x2.Idx → EReal) (ix2 k q) := by
  obtain ⟨-, -, -, -, -, -, e0, e1, -⟩ := index_facts t
  unfold iblk0
  rw [View.read_apply]
  show V c main_v6 _ = V c main_v6 _
  congr 1
  funext a
  apply Fin.ext
  match a with
  | ⟨0, _⟩ => show win0_3.index t (0 : Fin 2) * 256 + 1 * k.val = k.val; rw [e0]; omega
  | ⟨1, _⟩ => show win0_3.index t (1 : Fin 2) * 2 + 1 * q.val = q.val; rw [e1]; omega

/-- The second layer's bias block at any point is the whole bias row. -/
theorem b2_block_apply (c : Dev nD) (t : Fin cfg0.N) (q : Fin 2) :
    (iblk0 V c 4 t : Vec Ideal S1x2 .f32) (ix2 (0 : Fin 1) q) = (V c main_v8 : S1x2.Idx → EReal) (ix2 (0 : Fin 1) q) := by
  obtain ⟨-, -, -, -, -, -, -, -, e0, e1, -⟩ := index_facts t
  unfold iblk0
  rw [View.read_apply]
  show V c main_v8 _ = V c main_v8 _
  congr 1
  funext a
  apply Fin.ext
  match a with
  | ⟨0, _⟩ => show win0_4.index t (0 : Fin 2) * 1 + 1 * 0 = 0; rw [e0]
  | ⟨1, _⟩ => show win0_4.index t (1 : Fin 2) * 2 + 1 * q.val = q.val; rw [e1]; omega

/-- What point t stores at row p, column q of its block is the perceptron of row 10000·t + p of the feature array. -/
theorem point_value (c : Dev nD) (t : Fin cfg0.N) (p : Fin 10000) (q : Fin 2) :
    k0_pay1 (iblk0 V c 0 t) (iblk0 V c 1 t) (iblk0 V c 2 t) (iblk0 V c 3 t) (iblk0 V c 4 t) (ix2 p q)
      = nodeVal (V c main_arg0) (V c main_v0) (V c main_v2) (V c main_v6) (V c main_v8) ⟨10000 * t.val + p.val, row_lt t p⟩ q := by
  refine (payload_apply _ _ _ _ _ p q).trans ?_
  unfold nodeVal
  refine congrArg₂ (· + ·) (Finset.sum_congr rfl fun k _ => ?_) (b2_block_apply V c t q)
  refine congrArg₂ (· * ·) (congrArg leakyVal ?_) (w2_block_apply V c t k q)
  refine congrArg₂ (· + ·) (Finset.sum_congr rfl fun d _ => ?_) (b1_block_apply V c t k)
  exact congrArg₂ (· * ·) (features_block_apply V c t p d) (w1_block_apply V c t d k)

/-- What point t writes back is block t of the whole-array function. -/
theorem flushed_eq (c : Dev nD) (t : Fin cfg0.N) :
    (dat0 (F := Ideal) V c).flushed 5 t = ((cfg0.win 5).blk t).view.read (Elt Ideal) (wholeOut V c) := by
  show (cfg0.win 5).cut (grid0.coords t) ((dat0 (F := Ideal) V c).after 5 t) = _
  rw [after0_5]
  unfold out0_5
  rw [View.canon_unit_zero zero_offsets]
  simp only [View.ld_unit_zero (S := S10000x256) zero_offsets, View.ld_unit_zero (S := S256x256) zero_offsets,
    View.ld_unit_zero (S := S1x256) zero_offsets, View.ld_unit_zero (S := S256x2) zero_offsets,
    View.ld_unit_zero (S := S1x2) zero_offsets]
  obtain ⟨-, -, -, -, -, -, -, -, -, -, e0, e1⟩ := index_facts t
  funext j
  obtain ⟨p, q, rfl⟩ : ∃ (p : Fin 10000) (q : Fin 2), j = ix2 p q := ⟨j 0, j 1, eq_ix2 (n0 := 10000) (n1 := 2) j⟩
  show k0_pay1 (iblk0 V c 0 t) (iblk0 V c 1 t) (iblk0 V c 2 t) (iblk0 V c 3 t) (iblk0 V c 4 t) (ix2 p q)
      = wholeOut V c (((cfg0.win 5).blk t).view.emb (ix2 p q))
  refine (point_value V c t p q).trans ?_
  unfold wholeOut
  refine congrArg₂ (nodeVal (V c main_arg0) (V c main_v0) (V c main_v2) (V c main_v6) (V c main_v8)) (Fin.ext ?_) (Fin.ext ?_)
  · show 10000 * t.val + p.val = win0_5.index t (0 : Fin 2) * 10000 + 1 * p.val
    rw [e0]; omega
  · show q.val = win0_5.index t (1 : Fin 2) * 2 + 1 * q.val
    rw [e1]; omega

/-- An index of the output array is in point t's block iff each coordinate is in the block's range on its axis. -/
theorem mem_block (t : Fin cfg0.N) (i : S50000x2.Idx) :
    i ∈ ((cfg0.win 5).blk t).view.set ↔ ∀ a : Fin 2, win0_5.index t a * S10000x2.size a ≤ (i a).val
      ∧ (i a).val < win0_5.index t a * S10000x2.size a + S10000x2.size a := by
  show i ∈ ((View.whole main_v9).slice (win0_5.rect t)).set ↔ _
  rw [View.set_slice_whole, Rect.mem_set_unit]
  exact Iff.rfl

/-- Every row of the output lies in the block of the grid point row / 10000, and every point writes back. -/
theorem covered (i : S50000x2.Idx) :
    ∃ t : Fin cfg0.N, (cfg0.win 5).flush t = true ∧ i ∈ ((cfg0.win 5).blk t).view.set := by
  have hi0 : (i 0).val < 50000 := (i 0).isLt
  have hi1 : (i 1).val < 2 := (i 1).isLt
  obtain ⟨t, ht⟩ : ∃ t : Fin cfg0.N, t.val = (i 0).val / 10000 :=
    ⟨⟨(i 0).val / 10000, lt_of_lt_of_eq (by omega : (i 0).val / 10000 < 5) (N_0 : cfg0.N = 5).symm⟩, rfl⟩
  obtain ⟨-, -, -, -, -, -, -, -, -, -, e0, e1⟩ := index_facts t
  refine ⟨t, flush0_5 t, ?_⟩
  rw [mem_block]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 2 ≤ (i 1).val ∧ (i 1).val < win0_5.index t (1 : Fin 2) * 2 + 2
    rw [e1]; omega

/-- The output array after the region's run is the whole-array function. -/
theorem final_eq (c : Dev nD) : (dat0 (F := Ideal) V c).arrAt 5 cfg0.N = wholeOut V c :=
  (dat0 (F := Ideal) V c).arrAt_eq_of_cover 5 (wholeOut V c) (fun t _ => flushed_eq V c t) covered

/-- Row n, column j of the region's output array is the specification's node perceptron of row n. -/
theorem node_final (c : Dev nD) (n : Fin 50000) (j : Fin 2) :
    (dat0 (F := Ideal) V c).arrAt 5 cfg0.N (ix2 n j)
      = Cert.Spec.nodeOut (V c main_arg0) (V c main_v0) (V c main_v2) (V c main_v6) (V c main_v8) n j :=
  (congrFun (final_eq V c) (ix2 n j)).trans rfl

end Cert.KernelIdeal.NodeValue

end
-- ==== Proof.EdgeValue.lean ====
/-
  What the edge kernel's region leaves in its output row, entry by entry.

  The region walks 50 grid points; at point `t` the body reads rows `32000 t … 32000 t + 31999` of the edge features and
  the same stretch of a precomputed row, reads the perceptron's four parameter arrays whole, and stores one row of 32000
  gates. Read at an index, the stored entry `q` is the logistic of (the precomputed entry + the two-layer perceptron's
  score of feature row `q`) over the temperature word; with `q` being edge `32000 t + q` this is the specification's
  `edgeOut`. The 50 blocks tile the output row, so after the region entry `e` of the row is `edgeOut … e`.
-/
import proofs.«405104_j37160057045562_3_alg».proof.Proof.Gen.KernelIdeal.Frame
import proofs.«405104_j37160057045562_3_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.EdgeValue

open Idealize.ShloMosaic Idealize.ShloMosaic.TcCoe Idealize.SL.Sem Idealize.ShloMosaic.ValueIdx
open Cert.KernelIdeal Cert.KernelIdeal.Gen
open Idealize.ShloMosaic.Pipeline (Dat)

/-! ## The two contractions, read at an index

The first layer contracts axis 1 of a [32000,128] block with axis 0 of the [128,128] weights; the second contracts axis 1
of the rectified [32000,128] block with axis 0 of the [128,1] column. Each record's operand indices, axis by axis. -/

theorem lhs_layer1_0 (i : S32000x128.Idx) (q : dot_S32000x128_S128x128_S32000x128_1_0_0_1_n_n.contr.Idx) :
    (dot_S32000x128_S128x128_S32000x128_1_0_0_1_n_n.lhsIdx i q 0).val = (i 0).val := by
  unfold DotDims.lhsIdx
  rw [dif_neg (show ¬(0 : Fin S32000x128.rank) ∈ dot_S32000x128_S128x128_S32000x128_1_0_0_1_n_n.lhsBatch by decide), dif_pos (show (0 : Fin S32000x128.rank) ∈ dot_S32000x128_S128x128_S32000x128_1_0_0_1_n_n.lhsNonContracting by decide)]
  rfl
theorem lhs_layer1_1 (i : S32000x128.Idx) (q : dot_S32000x128_S128x128_S32000x128_1_0_0_1_n_n.contr.Idx) :
    (dot_S32000x128_S128x128_S32000x128_1_0_0_1_n_n.lhsIdx i q 1).val = (q ⟨0, by decide⟩).val :=
  dot_S32000x128_S128x128_S32000x128_1_0_0_1_n_n.lhsIdx_val_of_single rfl i q
theorem rhs_layer1_0 (i : S32000x128.Idx) (q : dot_S32000x128_S128x128_S32000x128_1_0_0_1_n_n.contr.Idx) :
    (dot_S32000x128_S128x128_S32000x128_1_0_0_1_n_n.rhsIdx i q 0).val = (q ⟨0, by decide⟩).val :=
  dot_S32000x128_S128x128_S32000x128_1_0_0_1_n_n.rhsIdx_val_of_single rfl i q
theorem rhs_layer1_1 (i : S32000x128.Idx) (q : dot_S32000x128_S128x128_S32000x128_1_0_0_1_n_n.contr.Idx) :
    (dot_S32000x128_S128x128_S32000x128_1_0_0_1_n_n.rhsIdx i q 1).val = (i 1).val := by
  unfold DotDims.rhsIdx
  rw [dif_neg (show ¬(1 : Fin S128x128.rank) ∈ dot_S32000x128_S128x128_S32000x128_1_0_0_1_n_n.rhsBatch by decide), dif_pos (show (1 : Fin S128x128.rank) ∈ dot_S32000x128_S128x128_S32000x128_1_0_0_1_n_n.rhsNonContracting by decide)]
  rfl

/-- The first layer's product at row `q`, unit `k`: the row against the unit's weight column. -/
theorem layer1_matmul_apply (x0 : FVec Ideal S32000x128 .f32) (x2 : FVec Ideal S128x128 .f32) (q : Fin 32000) (k : Fin 128) :
    matmul dot_S32000x128_S128x128_S32000x128_1_0_0_1_n_n none x0 x2 (constant S32000x128 .f32 0x00000000#32) (ix2 q k)
      = ∑ d : Fin 128, x0 (ix2 q d) * x2 (ix2 d k) := by
  refine (Ideal.matmul_constant_zero_apply dot_S32000x128_S128x128_S32000x128_1_0_0_1_n_n none x0 x2 (ix2 q k)).trans ?_
  rw [← Equiv.sum_comp (contrEquiv1 dot_S32000x128_S128x128_S32000x128_1_0_0_1_n_n 128 rfl rfl).symm]
  refine Finset.sum_congr rfl fun d _ => ?_
  have hk := contrEquiv1_symm_val dot_S32000x128_S128x128_S32000x128_1_0_0_1_n_n 128 rfl rfl d
  have el : dot_S32000x128_S128x128_S32000x128_1_0_0_1_n_n.lhsIdx (ix2 q k) ((contrEquiv1 dot_S32000x128_S128x128_S32000x128_1_0_0_1_n_n 128 rfl rfl).symm d) = ix2 q d := funext fun a => Fin.ext (by
    match a with
    | ⟨0, _⟩ => exact lhs_layer1_0 _ _
    | ⟨1, _⟩ => exact (lhs_layer1_1 _ _).trans hk)
  have er : dot_S32000x128_S128x128_S32000x128_1_0_0_1_n_n.rhsIdx (ix2 q k) ((contrEquiv1 dot_S32000x128_S128x128_S32000x128_1_0_0_1_n_n 128 rfl rfl).symm d) = ix2 d k := funext fun a => Fin.ext (by
    match a with
    | ⟨0, _⟩ => exact (rhs_layer1_0 _ _).trans hk
    | ⟨1, _⟩ => exact rhs_layer1_1 _ _)
  rw [el, er]

theorem lhs_layer2_0 (i : S32000x1.Idx) (q : dot_S32000x128_S128x1_S32000x1_1_0_0_1_n_n.contr.Idx) :
    (dot_S32000x128_S128x1_S32000x1_1_0_0_1_n_n.lhsIdx i q 0).val = (i 0).val := by
  unfold DotDims.lhsIdx
  rw [dif_neg (show ¬(0 : Fin S32000x128.rank) ∈ dot_S32000x128_S128x1_S32000x1_1_0_0_1_n_n.lhsBatch by decide), dif_pos (show (0 : Fin S32000x128.rank) ∈ dot_S32000x128_S128x1_S32000x1_1_0_0_1_n_n.lhsNonContracting by decide)]
  rfl
theorem lhs_layer2_1 (i : S32000x1.Idx) (q : dot_S32000x128_S128x1_S32000x1_1_0_0_1_n_n.contr.Idx) :
    (dot_S32000x128_S128x1_S32000x1_1_0_0_1_n_n.lhsIdx i q 1).val = (q ⟨0, by decide⟩).val :=
  dot_S32000x128_S128x1_S32000x1_1_0_0_1_n_n.lhsIdx_val_of_single rfl i q
theorem rhs_layer2_0 (i : S32000x1.Idx) (q : dot_S32000x128_S128x1_S32000x1_1_0_0_1_n_n.contr.Idx) :
    (dot_S32000x128_S128x1_S32000x1_1_0_0_1_n_n.rhsIdx i q 0).val = (q ⟨0, by decide⟩).val :=
  dot_S32000x128_S128x1_S32000x1_1_0_0_1_n_n.rhsIdx_val_of_single rfl i q
theorem rhs_layer2_1 (i : S32000x1.Idx) (q : dot_S32000x128_S128x1_S32000x1_1_0_0_1_n_n.contr.Idx) :
    (dot_S32000x128_S128x1_S32000x1_1_0_0_1_n_n.rhsIdx i q 1).val = (i 1).val := by
  unfold DotDims.rhsIdx
  rw [dif_neg (show ¬(1 : Fin S128x1.rank) ∈ dot_S32000x128_S128x1_S32000x1_1_0_0_1_n_n.rhsBatch by decide), dif_pos (show (1 : Fin S128x1.rank) ∈ dot_S32000x128_S128x1_S32000x1_1_0_0_1_n_n.rhsNonContracting by decide)]
  rfl

/-- The second layer's product at row `q`: the rectified row against the output column. -/
theorem layer2_matmul_apply (h : FVec Ideal S32000x128 .f32) (x4 : FVec Ideal S128x1 .f32) (q : Fin 32000) :
    matmul dot_S32000x128_S128x1_S32000x1_1_0_0_1_n_n none h x4 (constant S32000x1 .f32 0x00000000#32) (ix2 q (0 : Fin 1))
      = ∑ k : Fin 128, h (ix2 q k) * x4 (ix2 k (0 : Fin 1)) := by
  refine (Ideal.matmul_constant_zero_apply dot_S32000x128_S128x1_S32000x1_1_0_0_1_n_n none h x4 (ix2 q (0 : Fin 1))).trans ?_
  rw [← Equiv.sum_comp (contrEquiv1 dot_S32000x128_S128x1_S32000x1_1_0_0_1_n_n 128 rfl rfl).symm]
  refine Finset.sum_congr rfl fun k _ => ?_
  have hk := contrEquiv1_symm_val dot_S32000x128_S128x1_S32000x1_1_0_0_1_n_n 128 rfl rfl k
  have el : dot_S32000x128_S128x1_S32000x1_1_0_0_1_n_n.lhsIdx (ix2 q (0 : Fin 1)) ((contrEquiv1 dot_S32000x128_S128x1_S32000x1_1_0_0_1_n_n 128 rfl rfl).symm k) = ix2 q k := funext fun a => Fin.ext (by
    match a with
    | ⟨0, _⟩ => exact lhs_layer2_0 _ _
    | ⟨1, _⟩ => exact (lhs_layer2_1 _ _).trans hk)
  have er : dot_S32000x128_S128x1_S32000x1_1_0_0_1_n_n.rhsIdx (ix2 q (0 : Fin 1)) ((contrEquiv1 dot_S32000x128_S128x1_S32000x1_1_0_0_1_n_n 128 rfl rfl).symm k) = ix2 k (0 : Fin 1) := funext fun a => Fin.ext (by
    match a with
    | ⟨0, _⟩ => exact (rhs_layer2_0 _ _).trans hk
    | ⟨1, _⟩ => exact rhs_layer2_1 _ _)
  rw [el, er]

/-! ## The layout operations, read at an index -/

/-- The first layer's bias row, broadcast down the block's rows, reads the row's entry of the unit. -/
theorem bias_row_apply {α : Type} (y : S1x128.Idx → α) (q : Fin 32000) (k : Fin 128) :
    broadcastTo S32000x128 y broadcasts_S1x128_S32000x128 (ix2 q k) = y (ix2 (0 : Fin 1) k) :=
  broadcastTo_apply y broadcasts_S1x128_S32000x128 (ix2 q k) (ix2 (0 : Fin 1) k) (fun a => match a with
    | ⟨0, _⟩ => by show (0 : Nat) = if (1 : Nat) = 1 then 0 else q.val; rw [if_pos rfl]
    | ⟨1, _⟩ => by show k.val = if (128 : Nat) = 1 then 0 else k.val; rw [if_neg (by decide)])

/-- The second layer's one bias, broadcast down the column, reads that bias. -/
theorem bias_unit_apply {α : Type} (y : S1x1.Idx → α) (q : Fin 32000) :
    broadcastTo S32000x1 y broadcasts_S1x1_S32000x1 (ix2 q (0 : Fin 1)) = y (ix2 (0 : Fin 1) (0 : Fin 1)) :=
  broadcastTo_apply y broadcasts_S1x1_S32000x1 (ix2 q (0 : Fin 1)) (ix2 (0 : Fin 1) (0 : Fin 1)) (fun a => match a with
    | ⟨0, _⟩ => by show (0 : Nat) = if (1 : Nat) = 1 then 0 else q.val; rw [if_pos rfl]
    | ⟨1, _⟩ => by show (0 : Nat) = if (1 : Nat) = 1 then 0 else (0 : Nat); rw [if_pos rfl])

/-- The score column turned into a row: entry `q` of the row is row `q` of the column. -/
theorem column_to_row_apply {α : Type} (v : S32000x1.Idx → α) (q : Fin 32000) :
    transpose S1x32000 [1, 0] v transposes_S32000x1_p1_0_S1x32000 (ix2 (0 : Fin 1) q) = v (ix2 q (0 : Fin 1)) :=
  transpose_apply [1, 0] v transposes_S32000x1_p1_0_S1x32000 (ix2 (0 : Fin 1) q) (ix2 q (0 : Fin 1)) (fun b => match b with
    | ⟨0, _⟩ => rfl
    | ⟨1, _⟩ => rfl)

/-! ## The body's stored row at an index -/

/-- Entry `q` of the row the body stores: the logistic of (the precomputed row's entry plus the perceptron's score of
    the block's row `q`) over the temperature word. -/
theorem payload_apply (x0 : Vec Ideal S32000x128 .f32) (x2 : Vec Ideal S128x128 .f32) (x3 : Vec Ideal S1x128 .f32)
    (x4 : Vec Ideal S128x1 .f32) (x5 : Vec Ideal S1x1 .f32) (x1 : Vec Ideal S1x32000 .f32) (q : Fin 32000) :
    k1_pay1 (F := Ideal) x0 x2 x3 x4 x5 x1 (ix2 (0 : Fin 1) q)
      = Ideal.logistic (Ideal.div (x1 (ix2 (0 : Fin 1) q)
          + ((∑ k : Fin 128, Cert.Spec.leaky ((∑ d : Fin 128, x0 (ix2 q d) * x2 (ix2 d k)) + x3 (ix2 (0 : Fin 1) k)) * x4 (ix2 k (0 : Fin 1)))
             + x5 (ix2 (0 : Fin 1) (0 : Fin 1)))) (Ideal.ofBits .f32 0x3F000000#32)) := by
  unfold k1_pay1
  dsimp only
  simp only [shapeCast_self]
  refine congrArg Ideal.logistic (congrArg (fun z => Ideal.div z (Ideal.ofBits .f32 0x3F000000#32)) (congrArg (fun z => x1 (ix2 (0 : Fin 1) q) + z) ?_))
  rw [column_to_row_apply, addf_apply, layer2_matmul_apply, bias_unit_apply]
  refine congrArg (fun z => z + x5 (ix2 (0 : Fin 1) (0 : Fin 1))) (Finset.sum_congr rfl fun k _ => ?_)
  refine congrArg (fun z => z * x4 (ix2 k (0 : Fin 1))) ?_
  rw [select_apply, cmpf_apply, mulf_apply, broadcast_apply, broadcast_apply, addf_apply, layer1_matmul_apply, bias_row_apply]
  rfl

/-! ## The stored row against the specification

With the block's row `q` being edge `e` of the arrays, the stored entry is the specified gate of edge `e`. -/

theorem block_row_eq (EF : S1600000x128.Idx → EReal) (Gv : S1x1600000.Idx → EReal) (W1 : S128x128.Idx → EReal)
    (B1 : S1x128.Idx → EReal) (W2 : S128x1.Idx → EReal) (B2 : S1x1.Idx → EReal)
    (x0 : Vec Ideal S32000x128 .f32) (x1 : Vec Ideal S1x32000 .f32) (x2 : Vec Ideal S128x128 .f32) (x3 : Vec Ideal S1x128 .f32)
    (x4 : Vec Ideal S128x1 .f32) (x5 : Vec Ideal S1x1 .f32) (q : Fin 32000) (e : Fin 1600000)
    (h0 : ∀ d : Fin 128, x0 (ix2 q d) = EF (ix2 e d)) (h1 : x1 (ix2 (0 : Fin 1) q) = Gv (ix2 (0 : Fin 1) e))
    (h2 : ∀ d k : Fin 128, x2 (ix2 d k) = W1 (ix2 d k)) (h3 : ∀ k : Fin 128, x3 (ix2 (0 : Fin 1) k) = B1 (ix2 (0 : Fin 1) k))
    (h4 : ∀ k : Fin 128, x4 (ix2 k (0 : Fin 1)) = W2 (ix2 k (0 : Fin 1)))
    (h5 : x5 (ix2 (0 : Fin 1) (0 : Fin 1)) = B2 (ix2 (0 : Fin 1) (0 : Fin 1))) :
    k1_pay1 (F := Ideal) x0 x2 x3 x4 x5 x1 (ix2 (0 : Fin 1) q) = Cert.Spec.edgeOut EF Gv W1 B1 W2 B2 e := by
  rw [payload_apply, h1, h5]
  simp only [h0, h2, h3, h4]
  rfl

/-! ## The windows' blocks as pieces of the arrays

The edge features move down their rows with the grid point, the precomputed row and the output row move along their
columns, and the four parameter arrays are fetched whole: the printed index maps, decided over the 50 grid points. -/

theorem hz : (![0, 0] : Fin 2 → Nat) = fun _ => 0 := funext fun a => by fin_cases a <;> rfl

theorem index_facts : ∀ t : Fin cfg1.N,
    win1_0.index t (0 : Fin 2) = t.val ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = t.val :=
  (by decide +kernel : ∀ t : Fin grid1.N, _)

variable (V : (c : Dev nD) → (b : Ref sig .tc) → Buf (Elt Ideal) ((c : Thread nD τ).loc b))

/-- Row `q` of the edge-feature block at point `t` is row `32000 t + q` of the feature array. -/
theorem edge_block_apply (c : Dev nD) (t : Fin cfg1.N) (q : Fin 32000) (d : Fin 128) (e : Fin 1600000)
    (he : e.val = 32000 * t.val + q.val) :
    (iblk1 V c 0 t : Vec Ideal S32000x128 .f32) (ix2 q d) = (V c main_arg1 : S1600000x128.Idx → EReal) (ix2 e d) := by
  obtain ⟨i0, i1, -⟩ := index_facts t
  unfold iblk1
  rw [View.read_apply]
  show V c main_arg1 _ = V c main_arg1 _
  congr 1
  funext a
  apply Fin.ext
  match a with
  | ⟨0, _⟩ => show win1_0.index t (0 : Fin 2) * 32000 + 1 * q.val = e.val; rw [i0, he]; omega
  | ⟨1, _⟩ => show win1_0.index t (1 : Fin 2) * 128 + 1 * d.val = d.val; rw [i1]; omega

/-- Entry `q` of the precomputed row's block at point `t` is entry `32000 t + q` of that row. -/
theorem row_block_apply (c : Dev nD) (t : Fin cfg1.N) (q : Fin 32000) (e : Fin 1600000)
    (he : e.val = 32000 * t.val + q.val) :
    (iblk1 V c 1 t : Vec Ideal S1x32000 .f32) (ix2 (0 : Fin 1) q) = (V c main_v26 : S1x1600000.Idx → EReal) (ix2 (0 : Fin 1) e) := by
  obtain ⟨-, -, i0, i1, -⟩ := index_facts t
  unfold iblk1
  rw [View.read_apply]
  show V c main_v26 _ = V c main_v26 _
  congr 1
  funext a
  apply Fin.ext
  match a with
  | ⟨0, _⟩ => show win1_1.index t (0 : Fin 2) * 1 + 1 * 0 = 0; rw [i0]
  | ⟨1, _⟩ => show win1_1.index t (1 : Fin 2) * 32000 + 1 * q.val = e.val; rw [i1, he]; omega

/-- The first layer's weights are fetched whole. -/
theorem weight1_block_apply (c : Dev nD) (t : Fin cfg1.N) (d k : Fin 128) :
    (iblk1 V c 2 t : Vec Ideal S128x128 .f32) (ix2 d k) = (V c main_arg11 : S128x128.Idx → EReal) (ix2 d k) := by
  obtain ⟨-, -, -, -, i0, i1, -⟩ := index_facts t
  unfold iblk1
  rw [View.read_apply]
  show V c main_arg11 _ = V c main_arg11 _
  congr 1
  funext a
  apply Fin.ext
  match a with
  | ⟨0, _⟩ => show win1_2.index t (0 : Fin 2) * 128 + 1 * d.val = d.val; rw [i0]; omega
  | ⟨1, _⟩ => show win1_2.index t (1 : Fin 2) * 128 + 1 * k.val = k.val; rw [i1]; omega

/-- The first layer's bias row is fetched whole. -/
theorem bias1_block_apply (c : Dev nD) (t : Fin cfg1.N) (k : Fin 128) :
    (iblk1 V c 3 t : Vec Ideal S1x128 .f32) (ix2 (0 : Fin 1) k) = (V c main_v27 : S1x128.Idx → EReal) (ix2 (0 : Fin 1) k) := by
  obtain ⟨-, -, -, -, -, -, i0, i1, -⟩ := index_facts t
  unfold iblk1
  rw [View.read_apply]
  show V c main_v27 _ = V c main_v27 _
  congr 1
  funext a
  apply Fin.ext
  match a with
  | ⟨0, _⟩ => show win1_3.index t (0 : Fin 2) * 1 + 1 * 0 = 0; rw [i0]
  | ⟨1, _⟩ => show win1_3.index t (1 : Fin 2) * 128 + 1 * k.val = k.val; rw [i1]; omega

/-- The second layer's column is fetched whole. -/
theorem weight2_block_apply (c : Dev nD) (t : Fin cfg1.N) (k : Fin 128) :
    (iblk1 V c 4 t : Vec Ideal S128x1 .f32) (ix2 k (0 : Fin 1)) = (V c main_arg13 : S128x1.Idx → EReal) (ix2 k (0 : Fin 1)) := by
  obtain ⟨-, -, -, -, -, -, -, -, i0, i1, -⟩ := index_facts t
  unfold iblk1
  rw [View.read_apply]
  show V c main_arg13 _ = V c main_arg13 _
  congr 1
  funext a
  apply Fin.ext
  match a with
  | ⟨0, _⟩ => show win1_4.index t (0 : Fin 2) * 128 + 1 * k.val = k.val; rw [i0]; omega
  | ⟨1, _⟩ => show win1_4.index t (1 : Fin 2) * 1 + 1 * 0 = 0; rw [i1]

/-- The second layer's one bias is fetched whole. -/
theorem bias2_block_apply (c : Dev nD) (t : Fin cfg1.N) :
    (iblk1 V c 5 t : Vec Ideal S1x1 .f32) (ix2 (0 : Fin 1) (0 : Fin 1)) = (V c main_v28 : S1x1.Idx → EReal) (ix2 (0 : Fin 1) (0 : Fin 1)) := by
  obtain ⟨-, -, -, -, -, -, -, -, -, -, i0, i1, -⟩ := index_facts t
  unfold iblk1
  rw [View.read_apply]
  show V c main_v28 _ = V c main_v28 _
  congr 1
  funext a
  apply Fin.ext
  match a with
  | ⟨0, _⟩ => show win1_5.index t (0 : Fin 2) * 1 + 1 * 0 = 0; rw [i0]
  | ⟨1, _⟩ => show win1_5.index t (1 : Fin 2) * 1 + 1 * 0 = 0; rw [i1]

/-- Entry `q` of the output row's block at point `t` sits at entry `32000 t + q` of the output row. -/
theorem out_block_emb (t : Fin cfg1.N) (q : Fin 32000) (e : Fin 1600000) (he : e.val = 32000 * t.val + q.val) :
    ((cfg1.win 6).blk t).view.emb (ix2 (0 : Fin 1) q) = (ix2 (0 : Fin 1) e : S1x1600000.Idx) := by
  obtain ⟨-, -, -, -, -, -, -, -, -, -, -, -, i0, i1⟩ := index_facts t
  funext a
  apply Fin.ext
  match a with
  | ⟨0, _⟩ => show win1_6.index t (0 : Fin 2) * 1 + 1 * 0 = 0; rw [i0]
  | ⟨1, _⟩ => show win1_6.index t (1 : Fin 2) * 32000 + 1 * q.val = e.val; rw [i1, he]; omega

/-! ## From the blocks to the output row -/

/-- The whole output row as one function of the six arrays the region finds: entry `e` is the specified gate of edge `e`. -/
def gateRow (c : Dev nD) : S1x1600000.Idx → EReal := fun i =>
  Cert.Spec.edgeOut (V c main_arg1) (V c main_v26) (V c main_arg11) (V c main_v27) (V c main_arg13) (V c main_v28)
    ⟨(i 1).val, idx2_lt1 i⟩

/-- What point `t` writes back is block `t` of that row. -/
theorem flushed_eq (c : Dev nD) (t : Fin cfg1.N) :
    (dat1 (F := Ideal) V c).flushed 6 t = ((cfg1.win 6).blk t).view.read (Elt Ideal) (gateRow V c) := by
  show (cfg1.win 6).cut (grid1.coords t) ((dat1 V c).after 6 t) = _
  rw [after1_6]
  unfold out1_6
  rw [View.canon_unit_zero hz]
  simp only [View.ld_unit_zero (S := S32000x128) hz, View.ld_unit_zero (S := S128x128) hz, View.ld_unit_zero (S := S1x128) hz,
    View.ld_unit_zero (S := S128x1) hz, View.ld_unit_zero (S := S1x1) hz, View.ld_unit_zero (S := S1x32000) hz]
  funext j
  obtain ⟨p, q, rfl⟩ : ∃ (p : Fin 1) (q : Fin 32000), j = ix2 p q := ⟨j 0, j 1, eq_ix2 j⟩
  obtain rfl : p = 0 := Subsingleton.elim _ _
  have hN : t.val < 50 := Nat.lt_of_lt_of_eq t.isLt (show cfg1.N = 50 from N_1)
  have hq : q.val < 32000 := q.isLt
  have he : (⟨32000 * t.val + q.val, by omega⟩ : Fin 1600000).val = 32000 * t.val + q.val := rfl
  show k1_pay1 (F := Ideal) (iblk1 V c 0 t) (iblk1 V c 2 t) (iblk1 V c 3 t) (iblk1 V c 4 t) (iblk1 V c 5 t) (iblk1 V c 1 t) (ix2 (0 : Fin 1) q)
    = gateRow V c (((cfg1.win 6).blk t).view.emb (ix2 (0 : Fin 1) q))
  refine (block_row_eq (V c main_arg1) (V c main_v26) (V c main_arg11) (V c main_v27) (V c main_arg13) (V c main_v28)
    (iblk1 V c 0 t) (iblk1 V c 1 t) (iblk1 V c 2 t) (iblk1 V c 3 t) (iblk1 V c 4 t) (iblk1 V c 5 t) q _
    (fun d => edge_block_apply V c t q d _ he) (row_block_apply V c t q _ he) (fun d k => weight1_block_apply V c t d k)
    (fun k => bias1_block_apply V c t k) (fun k => weight2_block_apply V c t k) (bias2_block_apply V c t)).trans ?_
  exact (congrArg (gateRow V c) (out_block_emb t q _ he)).symm

/-- An index of the output row is in point `t`'s block iff each coordinate is in the block's range on its axis. -/
theorem mem_blk (t : Fin cfg1.N) (i : S1x1600000.Idx) :
    i ∈ ((cfg1.win 6).blk t).view.set ↔ ∀ a : Fin 2, win1_6.index t a * S1x32000.size a ≤ (i a).val ∧ (i a).val < win1_6.index t a * S1x32000.size a + S1x32000.size a := by
  show i ∈ ((View.whole main_v29).slice (win1_6.rect t)).set ↔ _
  rw [View.set_slice_whole, Rect.mem_set_unit]
  exact Iff.rfl

/-- Every entry of the output row is written: entry `e` by point `e / 32000`. -/
theorem cover (i : S1x1600000.Idx) :
    ∃ t : Fin cfg1.N, (cfg1.win 6).flush t = true ∧ i ∈ ((cfg1.win 6).blk t).view.set := by
  have hi0 : (i 0).val < 1 := idx2_lt0 i
  have hi1 : (i 1).val < 1600000 := idx2_lt1 i
  have hlt : (i 1).val / 32000 < cfg1.N := by rw [show cfg1.N = 50 from N_1]; omega
  obtain ⟨-, -, -, -, -, -, -, -, -, -, -, -, i0, i1⟩ := index_facts ⟨(i 1).val / 32000, hlt⟩
  have i1' : win1_6.index ⟨(i 1).val / 32000, hlt⟩ (1 : Fin 2) = (i 1).val / 32000 := i1
  refine ⟨⟨(i 1).val / 32000, hlt⟩, flush1_6 _, ?_⟩
  rw [mem_blk]
  intro a
  match a with
  | ⟨0, _⟩ => show win1_6.index ⟨(i 1).val / 32000, hlt⟩ (0 : Fin 2) * 1 ≤ (i 0).val ∧ (i 0).val < win1_6.index ⟨(i 1).val / 32000, hlt⟩ (0 : Fin 2) * 1 + 1; rw [i0]; omega
  | ⟨1, _⟩ => show win1_6.index ⟨(i 1).val / 32000, hlt⟩ (1 : Fin 2) * 32000 ≤ (i 1).val ∧ (i 1).val < win1_6.index ⟨(i 1).val / 32000, hlt⟩ (1 : Fin 2) * 32000 + 32000; rw [i1']; omega

/-- The output row after the region is that function. -/
theorem final_row (c : Dev nD) : (dat1 (F := Ideal) V c).arrAt 6 cfg1.N = gateRow V c :=
  (dat1 (F := Ideal) V c).arrAt_eq_of_cover 6 (gateRow V c) (fun t _ => flushed_eq V c t) cover

/-- Entry `e` of the region's output row is the specified gate of edge `e`, for every entry valuation of the region. -/
theorem edge_final (c : Dev nD) (e : Fin 1600000) :
    (dat1 (F := Ideal) V c).arrAt 6 cfg1.N (ix2 (0 : Fin 1) e)
      = Cert.Spec.edgeOut (V c main_arg1) (V c main_v26) (V c main_arg11) (V c main_v27) (V c main_arg13) (V c main_v28) e :=
  congrFun (final_row V c) (ix2 (0 : Fin 1) e)

end Cert.KernelIdeal.EdgeValue

end
-- ==== Proof.KernelValue.lean ====
/-
  What the kernel's program computes: its two results as functions of the argument arrays.

  @main is a fold of buffer contents through eight segments.  Read off segment by segment: the host fuses the two
  node perceptrons' weights; the node kernel leaves the fused perceptron's two columns; the host splits the columns
  into the source and destination score tables, takes them at the two index vectors (a plain gather, the indices being
  in range), and forms each edge's precomputed row; the edge kernel leaves each edge's gate; the host flattens the
  gates and averages 1 − gate.
-/
import proofs.«405104_j37160057045562_3_alg».proof.Proof.Gen.KernelIdeal.Frame
import proofs.«405104_j37160057045562_3_alg».proof.Proof.Spec
import proofs.«405104_j37160057045562_3_alg».proof.Proof.Algebra
import proofs.«405104_j37160057045562_3_alg».proof.Proof.IndexRange
import proofs.«405104_j37160057045562_3_alg».proof.Proof.TakeMask
import proofs.«405104_j37160057045562_3_alg».proof.Proof.TakeAfter
import proofs.«405104_j37160057045562_3_alg».proof.Proof.HostFold
import proofs.«405104_j37160057045562_3_alg».proof.Proof.FusedWeights
import proofs.«405104_j37160057045562_3_alg».proof.Proof.NodeValue
import proofs.«405104_j37160057045562_3_alg».proof.Proof.EdgeValue
import Idealize.ShloMosaic.Lib.StableHlo.Run
import Idealize.ShloMosaic.Lib.Pipeline.Value
import Idealize.ShloMosaic.Lib.ValueIdx

set_option maxRecDepth 16384

noncomputable section

namespace Cert.KernelIdeal.KernelValue

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The node kernel's entry: the argument rows and the fused weights -/

theorem V1_x (c : Dev nD) : V1 m ρ c main_arg0 = m ((c : Thread nD τ).loc main_arg0) :=
  HostFold.W1_of m ρ c main_arg0 (by decide)
set_option maxHeartbeats 4000000 in
theorem V1_w1 (c : Dev nD) : V1 m ρ c main_v0
    = FusedWeights.w1cat (m ((c : Thread nD τ).loc main_arg3)) (m ((c : Thread nD τ).loc main_arg7)) := by
  show StableHlo.after hostOps0 (W0 m ρ c) (Proc.devRef .tc main_v0) = _
  after_results_simp <;> rfl
set_option maxHeartbeats 4000000 in
theorem V1_b1 (c : Dev nD) : V1 m ρ c main_v2
    = FusedWeights.b1cat (m ((c : Thread nD τ).loc main_arg4)) (m ((c : Thread nD τ).loc main_arg8)) := by
  show StableHlo.after hostOps0 (W0 m ρ c) (Proc.devRef .tc main_v2) = _
  after_results_simp <;> rfl
set_option maxHeartbeats 4000000 in
theorem V1_w2 (c : Dev nD) : V1 m ρ c main_v6
    = FusedWeights.w2cat (m ((c : Thread nD τ).loc main_arg5)) (m ((c : Thread nD τ).loc main_arg9)) := by
  show StableHlo.after hostOps0 (W0 m ρ c) (Proc.devRef .tc main_v6) = _
  after_results_simp <;> rfl
set_option maxHeartbeats 4000000 in
theorem V1_b2 (c : Dev nD) : V1 m ρ c main_v8
    = FusedWeights.b2cat (m ((c : Thread nD τ).loc main_arg6)) (m ((c : Thread nD τ).loc main_arg10)) := by
  show StableHlo.after hostOps0 (W0 m ρ c) (Proc.devRef .tc main_v8) = _
  after_results_simp <;> rfl

set_option maxHeartbeats 4000000 in
/-- The node kernel's output array, at row `n` and column `j`: the fused perceptron over the argument rows. -/
theorem nodes_apply (c : Dev nD) (n : Fin 50000) (j : Fin 2) :
    W2 m ρ c (Proc.devRef .tc main_v9) (ix2 n j)
      = Cert.Spec.nodeOut (m ((c : Thread nD τ).loc main_arg0))
          (FusedWeights.w1cat (m ((c : Thread nD τ).loc main_arg3)) (m ((c : Thread nD τ).loc main_arg7)))
          (FusedWeights.b1cat (m ((c : Thread nD τ).loc main_arg4)) (m ((c : Thread nD τ).loc main_arg8)))
          (FusedWeights.w2cat (m ((c : Thread nD τ).loc main_arg5)) (m ((c : Thread nD τ).loc main_arg9)))
          (FusedWeights.b2cat (m ((c : Thread nD τ).loc main_arg6)) (m ((c : Thread nD τ).loc main_arg10))) n j := by
  have h := NodeValue.node_final (V1 m ρ) c n j
  rw [V1_x, V1_w1, V1_b1, V1_w2, V1_b2] at h
  rw [← h]
  exact congrFun (W2_arr m ρ c 5) (ix2 n j)

/-! ## The two score tables -/

/-- Column `j` of the [50000, 2] array, flattened: its entry `n` is the array's `(n, j)`. -/
theorem col_apply (A : S50000x2.Idx → EReal) (n : Fin 50000) :
    shapeCast S50000 (extractStridedSlice S50000x1 ![0, 0] A slices_S50000x2_S50000x1_0_0) shapeCasts_S50000x1_S50000 (ix1 n)
        = A (ix2 n (0 : Fin 2))
    ∧ shapeCast S50000 (extractStridedSlice S50000x1 ![0, 1] A slices_S50000x2_S50000x1_0_1) shapeCasts_S50000x1_S50000 (ix1 n)
        = A (ix2 n (1 : Fin 2)) := by
  constructor
  · rw [shapeCast_apply _ _ (ix1 n) (ix2 n (0 : Fin 1)) (by rw [Shape.rowMajor_val_two, Shape.rowMajor_val_one]; simp)]
    exact extractStridedSlice_apply _ _ _ _ (ix2 n (0 : Fin 2)) (fun a => by
      match a with
      | ⟨0, _⟩ => simp
      | ⟨1, _⟩ => simp)
  · rw [shapeCast_apply _ _ (ix1 n) (ix2 n (0 : Fin 1)) (by rw [Shape.rowMajor_val_two, Shape.rowMajor_val_one]; simp)]
    exact extractStridedSlice_apply _ _ _ _ (ix2 n (1 : Fin 2)) (fun a => by
      match a with
      | ⟨0, _⟩ => simp
      | ⟨1, _⟩ => simp)

set_option maxHeartbeats 4000000 in
theorem srcTable_eq (c : Dev nD) : W3 m ρ c (Proc.devRef .tc main_v11)
    = shapeCast S50000 (extractStridedSlice S50000x1 ![0, 0] (W2 m ρ c (Proc.devRef .tc main_v9)) slices_S50000x2_S50000x1_0_0)
        shapeCasts_S50000x1_S50000 := by
  show StableHlo.after hostOps1 (W2 m ρ c) (Proc.devRef .tc main_v11) = _
  after_results_simp <;> rfl
set_option maxHeartbeats 4000000 in
theorem dstTable_eq (c : Dev nD) : W3 m ρ c (Proc.devRef .tc main_v13)
    = shapeCast S50000 (extractStridedSlice S50000x1 ![0, 1] (W2 m ρ c (Proc.devRef .tc main_v9)) slices_S50000x2_S50000x1_0_1)
        shapeCasts_S50000x1_S50000 := by
  show StableHlo.after hostOps1 (W2 m ρ c) (Proc.devRef .tc main_v13) = _
  after_results_simp <;> rfl

/-- The source table's entry `n` is the source perceptron's score of node `n`. -/
theorem srcTable_apply (c : Dev nD) (n : Fin 50000) :
    W3 m ρ c (Proc.devRef .tc main_v11) (ix1 n)
      = Cert.Spec.mlp (fun d : Fin 256 => m ((c : Thread nD τ).loc main_arg0) (ix2 n d))
          (fun (d : Fin 256) (k : Fin 128) => m ((c : Thread nD τ).loc main_arg3) (ix2 d k))
          (fun k : Fin 128 => m ((c : Thread nD τ).loc main_arg4) (ix1 k))
          (fun k : Fin 128 => m ((c : Thread nD τ).loc main_arg5) (ix2 k (0 : Fin 1)))
          (m ((c : Thread nD τ).loc main_arg6) (ix1 (0 : Fin 1))) := by
  rw [srcTable_eq, (col_apply _ n).1, nodes_apply]
  exact FusedWeights.fused_src _ _ _ _ _ _ _ _ _ n

/-- The destination table's entry `n` is the destination perceptron's score of node `n`. -/
theorem dstTable_apply (c : Dev nD) (n : Fin 50000) :
    W3 m ρ c (Proc.devRef .tc main_v13) (ix1 n)
      = Cert.Spec.mlp (fun d : Fin 256 => m ((c : Thread nD τ).loc main_arg0) (ix2 n d))
          (fun (d : Fin 256) (k : Fin 128) => m ((c : Thread nD τ).loc main_arg7) (ix2 d k))
          (fun k : Fin 128 => m ((c : Thread nD τ).loc main_arg8) (ix1 k))
          (fun k : Fin 128 => m ((c : Thread nD τ).loc main_arg9) (ix2 k (0 : Fin 1)))
          (m ((c : Thread nD τ).loc main_arg10) (ix1 (0 : Fin 1))) := by
  rw [dstTable_eq, (col_apply _ n).2, nodes_apply]
  exact FusedWeights.fused_dst _ _ _ _ _ _ _ _ _ n

/-! ## The two takes: plain gathers on in-range indices -/

theorem srcTake_eq (c : Dev nD) (hx : Cert.Spec.InRange (m ((c : Thread nD τ).loc main_arg15))) :
    W4 m ρ c (Proc.devRef .tc main_v14)
      = Host.gather gather_S50000_S1600000x1_S1600000_n_0_n_n_0_1_1 (W3 m ρ c (Proc.devRef .tc main_v11))
          (TakeMask.wrapCol (m ((c : Thread nD τ).loc main_arg15))) := by
  have h : W4 m ρ c (Proc.devRef .tc main_v14)
      = TakeMask.takeFill (W3 m ρ c (Proc.devRef .tc main_v11)) (W3 m ρ c (Proc.devRef .tc main_arg15)) TakeAfter.fillNaN :=
    TakeAfter.srcTake_after (W3 m ρ c)
  rw [h, HostFold.W3_kept m ρ c main_arg15 (by decide) (by decide) (by decide)]
  exact TakeMask.takeFill_eq _ _ _ hx

theorem dstTake_eq (c : Dev nD) (hx : Cert.Spec.InRange (m ((c : Thread nD τ).loc main_arg16))) :
    W5 m ρ c (Proc.devRef .tc main_v15)
      = Host.gather gather_S50000_S1600000x1_S1600000_n_0_n_n_0_1_1 (W3 m ρ c (Proc.devRef .tc main_v13))
          (TakeMask.wrapCol (m ((c : Thread nD τ).loc main_arg16))) := by
  have h : W5 m ρ c (Proc.devRef .tc main_v15)
      = TakeMask.takeFill (W4 m ρ c (Proc.devRef .tc main_v13)) (W4 m ρ c (Proc.devRef .tc main_arg16)) TakeAfter.fillNaN :=
    TakeAfter.dstTake_after (W4 m ρ c)
  rw [h, HostFold.W4_kept m ρ c main_arg16 (by decide) (by decide) (by decide) (by decide),
    HostFold.W4_of m ρ c main_v13 (by decide)]
  exact TakeMask.takeFill_eq _ _ _ hx

/-! ## The edge kernel's entry -/

/-- The precomputed row, as the host forms it from the two taken score vectors and the uniform draws. -/
theorem row_eq (c : Dev nD) : W6 m ρ c (Proc.devRef .tc main_v26)
    = shapeCast S1x1600000
        (subf (addf (addf (W5 m ρ c (Proc.devRef .tc main_v14)) (W5 m ρ c (Proc.devRef .tc main_v15)))
            (Host.log (addf (mulf (broadcastInDim S1600000 ![] bcast_S_S1600000 (constant (F := Ideal) S_ .f32 0xBF7FF2E5#32))
                (W5 m ρ c (Proc.devRef .tc main_arg2)))
              (broadcastInDim S1600000 ![] bcast_S_S1600000 (constant (F := Ideal) S_ .f32 0x3F7FF972#32)))))
          (Host.log1p (Host.negf (addf (mulf (broadcastInDim S1600000 ![] bcast_S_S1600000 (constant (F := Ideal) S_ .f32 0xBF7FF2E5#32))
                (W5 m ρ c (Proc.devRef .tc main_arg2)))
              (broadcastInDim S1600000 ![] bcast_S_S1600000 (constant (F := Ideal) S_ .f32 0x3F7FF972#32))))))
        shapeCasts_S1600000_S1x1600000 := by
  show StableHlo.after hostOps1_3 (W5 m ρ c) (Proc.devRef .tc main_v26) = _
  after_results_simp <;> rfl

/-- The precomputed row at edge `e`, over what the two takes gathered there. -/
theorem row_apply (c : Dev nD) (e : Fin 1600000) (a b : S1600000.Idx → EReal)
    (ha : W5 m ρ c (Proc.devRef .tc main_v14) = a) (hb : W5 m ρ c (Proc.devRef .tc main_v15) = b) :
    W6 m ρ c (Proc.devRef .tc main_v26) (ix2 (0 : Fin 1) e)
      = Cert.Spec.kernelRow (m ((c : Thread nD τ).loc main_arg2) (ix1 e)) (a (ix1 e)) (b (ix1 e)) := by
  rw [row_eq, ha, hb, HostFold.W5_kept m ρ c main_arg2 (by decide) (by decide) (by decide) (by decide) (by decide),
    shapeCast_apply _ _ (ix2 (0 : Fin 1) e) (ix1 e) (by rw [Shape.rowMajor_val_two, Shape.rowMajor_val_one]; simp)]
  rfl

set_option maxHeartbeats 4000000 in
theorem bias1_eq (c : Dev nD) : W6 m ρ c (Proc.devRef .tc main_v27)
    = shapeCast S1x128 (m ((c : Thread nD τ).loc main_arg12)) shapeCasts_S128_S1x128 := by
  have h : W6 m ρ c (Proc.devRef .tc main_v27)
      = shapeCast S1x128 (W5 m ρ c (Proc.devRef .tc main_arg12)) shapeCasts_S128_S1x128 := by
    show StableHlo.after hostOps1_3 (W5 m ρ c) (Proc.devRef .tc main_v27) = _
    after_results_simp <;> rfl
  rw [h, HostFold.W5_kept m ρ c main_arg12 (by decide) (by decide) (by decide) (by decide) (by decide)]
set_option maxHeartbeats 4000000 in
theorem bias2_eq (c : Dev nD) : W6 m ρ c (Proc.devRef .tc main_v28)
    = shapeCast S1x1 (m ((c : Thread nD τ).loc main_arg14)) shapeCasts_S1_S1x1 := by
  have h : W6 m ρ c (Proc.devRef .tc main_v28)
      = shapeCast S1x1 (W5 m ρ c (Proc.devRef .tc main_arg14)) shapeCasts_S1_S1x1 := by
    show StableHlo.after hostOps1_3 (W5 m ρ c) (Proc.devRef .tc main_v28) = _
    after_results_simp <;> rfl
  rw [h, HostFold.W5_kept m ρ c main_arg14 (by decide) (by decide) (by decide) (by decide) (by decide)]

/-! ## The gates and the regulariser -/

/-- The edge kernel's output array at column `e`. -/
theorem gates_apply (c : Dev nD) (e : Fin 1600000) :
    W7 m ρ c (Proc.devRef .tc main_v29) (ix2 (0 : Fin 1) e)
      = Cert.Spec.edgeOut (m ((c : Thread nD τ).loc main_arg1)) (W6 m ρ c (Proc.devRef .tc main_v26))
          (m ((c : Thread nD τ).loc main_arg11)) (shapeCast S1x128 (m ((c : Thread nD τ).loc main_arg12)) shapeCasts_S128_S1x128)
          (m ((c : Thread nD τ).loc main_arg13)) (shapeCast S1x1 (m ((c : Thread nD τ).loc main_arg14)) shapeCasts_S1_S1x1) e := by
  have h := EdgeValue.edge_final (V6 m ρ) c e
  rw [show V6 m ρ c main_arg1 = m ((c : Thread nD τ).loc main_arg1) from
        HostFold.W6_kept m ρ c main_arg1 (by decide) (by decide) (by decide) (by decide) (by decide) (by decide),
    show V6 m ρ c main_arg11 = m ((c : Thread nD τ).loc main_arg11) from
        HostFold.W6_kept m ρ c main_arg11 (by decide) (by decide) (by decide) (by decide) (by decide) (by decide),
    show V6 m ρ c main_arg13 = m ((c : Thread nD τ).loc main_arg13) from
        HostFold.W6_kept m ρ c main_arg13 (by decide) (by decide) (by decide) (by decide) (by decide) (by decide),
    show V6 m ρ c main_v27 = _ from bias1_eq m ρ c, show V6 m ρ c main_v28 = _ from bias2_eq m ρ c] at h
  rw [← h]
  exact congrFun (W7_arr m ρ c 6) (ix2 (0 : Fin 1) e)

/-- The regulariser both programs form from the flat gate vector: the mean of 1 − gate, the host's sum from the zero word
    divided by the word 0x49C35000 (1600000). -/
def regOf (g : S1600000.Idx → EReal) : S_.Idx → EReal :=
  Host.divf (Host.reduceAdd (subf (broadcastInDim S1600000 ![] bcast_S_S1600000 (constant (F := Ideal) S_ .f32 0x3F800000#32)) g)
    (constant (F := Ideal) S_ .f32 0x00000000#32) reducesTo_S1600000_S_d0 h_S_) (constant (F := Ideal) S_ .f32 0x49C35000#32)

set_option maxHeartbeats 4000000 in
theorem gatesFlat_eq (c : Dev nD) : W8 m ρ c (Proc.devRef .tc main_v30)
    = shapeCast S1600000 (W7 m ρ c (Proc.devRef .tc main_v29)) shapeCasts_S1x1600000_S1600000 := by
  show StableHlo.after hostOps2 (W7 m ρ c) (Proc.devRef .tc main_v30) = _
  after_results_simp <;> rfl

theorem gatesFlat_apply (c : Dev nD) (e : Fin 1600000) :
    W8 m ρ c (Proc.devRef .tc main_v30) (ix1 e) = W7 m ρ c (Proc.devRef .tc main_v29) (ix2 (0 : Fin 1) e) := by
  rw [gatesFlat_eq]
  exact shapeCast_apply _ _ (ix1 e) (ix2 (0 : Fin 1) e) (by rw [Shape.rowMajor_val_two, Shape.rowMajor_val_one]; simp)

set_option maxHeartbeats 4000000 in
theorem reg_eq (c : Dev nD) : W8 m ρ c (Proc.devRef .tc main_v34) = regOf (W8 m ρ c (Proc.devRef .tc main_v30)) := by
  rw [gatesFlat_eq]
  show StableHlo.after hostOps2 (W7 m ρ c) (Proc.devRef .tc main_v34) = _
  after_results_simp <;> rfl

end Cert.KernelIdeal.KernelValue

end
-- ==== Proof.RefValue.lean ====
/-
  The reference program's stages read at one node or one edge, in the vocabulary of the shared specification.

  The reference scores every node twice and every edge once with a two-layer perceptron (a contraction over the features,
  a bias, the leaky rectifier, a contraction over the 128 hidden units, a bias, a reshape of the one-column result), then
  forms each edge's gate elementwise from the uniform draw, the two gathered node scores and the edge score. Each
  generated stage is read at an index from the stage before it; composing those reads, and identifying the composed index
  functions with plain coordinates, gives the perceptron of the specification for the three scores and its expanded
  logistic for the gate. The two gathers are not read: the gate is stated over their values at the edge.
-/
import proofs.«405104_j37160057045562_3_alg».proof.Proof.Gen.ReferenceIdeal.Read
import proofs.«405104_j37160057045562_3_alg».proof.Proof.Spec
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The source perceptron's score of node `n`: the reference's stage 13 at `n` is the perceptron over row `n` of the features. -/
theorem src_score_apply (x0 : (⟨S50000x256, .f32⟩ : BufTy).Contents (Elt Ideal)) (x3 : (⟨S256x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal)) (n : Fin 50000) :
    val_main_v13 (F := Ideal) x0 x3 x4 x5 x6 (ix1 n)
      = Cert.Spec.mlp (fun d : Fin 256 => x0 (ix2 n d)) (fun (d : Fin 256) (k : Fin 128) => x3 (ix2 d k)) (fun k : Fin 128 => x4 (ix1 k))
          (fun k : Fin 128 => x5 (ix2 k (0 : Fin 1))) (x6 (ix1 (0 : Fin 1))) := by
  -- the reshape reads row n of the one-column array (its row coordinate is n / 1)
  have e13 : idx_main_v13 (ix1 n) = ix2 n (0 : Fin 1) := funext fun a => Fin.ext (by
    match a with
    | ⟨0, _⟩ => exact Nat.div_one _
    | ⟨1, _⟩ => rfl)
  -- the second contraction pairs hidden unit k of row n with row k of the second layer's column
  have el9 : ∀ k : Fin 128, lidx_main_v9 (ix2 n (0 : Fin 1)) k = ix2 n k := fun k => funext fun a => Fin.ext (by
    match a with
    | ⟨0, _⟩ => rfl
    | ⟨1, _⟩ => rfl)
  have er9 : ∀ k : Fin 128, ridx_main_v9 (ix2 n (0 : Fin 1)) k = ix2 k (0 : Fin 1) := fun k => funext fun a => Fin.ext (by
    match a with
    | ⟨0, _⟩ => rfl
    | ⟨1, _⟩ => rfl)
  -- the first contraction pairs feature d of row n with entry (d, k) of the first layer
  have el0 : ∀ (k : Fin 128) (d : Fin 256), lidx_main_v0 (ix2 n k) d = ix2 n d := fun k d => funext fun a => Fin.ext (by
    match a with
    | ⟨0, _⟩ => rfl
    | ⟨1, _⟩ => rfl)
  have er0 : ∀ (k : Fin 128) (d : Fin 256), ridx_main_v0 (ix2 n k) d = ix2 d k := fun k d => funext fun a => Fin.ext (by
    match a with
    | ⟨0, _⟩ => rfl
    | ⟨1, _⟩ => rfl)
  -- the two broadcasts of the first bias read its entry k, those of the second bias its one entry
  have e1 : ∀ k : Fin 128, idx_main_v1 (idx_main_v2 (ix2 n k)) = ix1 k := fun k => funext fun a => Fin.ext (by
    match a with
    | ⟨0, _⟩ => rfl)
  have e10 : idx_main_v10 (idx_main_v11 (ix2 n (0 : Fin 1))) = ix1 (0 : Fin 1) := funext fun a => Fin.ext (by
    match a with
    | ⟨0, _⟩ => rfl)
  rw [val_main_v13_apply, e13, val_main_v12_apply, val_main_v9_apply, val_main_v11_apply, val_main_v10_apply, e10]
  simp only [el9, er9, val_main_v8_apply, val_main_v5_apply, val_main_v7_apply, val_main_v3_apply, val_main_v0_apply,
    val_main_v2_apply, val_main_v1_apply, val_main_v4_apply, val_main_v6_apply, val_main_cst_apply, val_main_cst_0_apply,
    el0, er0, e1, Ideal.addf_def, Ideal.mulf_def, Ideal.ofBits_def, Ideal.cmpf_def]
  -- what is left is the perceptron, its rectifier spelled as the select on "above zero"
  rfl

/-- The destination perceptron's score of node `n`: the same over the destination weights (stage 27). -/
theorem dst_score_apply (x0 : (⟨S50000x256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) (n : Fin 50000) :
    val_main_v27 (F := Ideal) x0 x7 x8 x9 x10 (ix1 n)
      = Cert.Spec.mlp (fun d : Fin 256 => x0 (ix2 n d)) (fun (d : Fin 256) (k : Fin 128) => x7 (ix2 d k)) (fun k : Fin 128 => x8 (ix1 k))
          (fun k : Fin 128 => x9 (ix2 k (0 : Fin 1))) (x10 (ix1 (0 : Fin 1))) := by
  -- the reshape reads row n of the one-column array (its row coordinate is n / 1)
  have e13 : idx_main_v27 (ix1 n) = ix2 n (0 : Fin 1) := funext fun a => Fin.ext (by
    match a with
    | ⟨0, _⟩ => exact Nat.div_one _
    | ⟨1, _⟩ => rfl)
  -- the second contraction pairs hidden unit k of row n with row k of the second layer's column
  have el9 : ∀ k : Fin 128, lidx_main_v23 (ix2 n (0 : Fin 1)) k = ix2 n k := fun k => funext fun a => Fin.ext (by
    match a with
    | ⟨0, _⟩ => rfl
    | ⟨1, _⟩ => rfl)
  have er9 : ∀ k : Fin 128, ridx_main_v23 (ix2 n (0 : Fin 1)) k = ix2 k (0 : Fin 1) := fun k => funext fun a => Fin.ext (by
    match a with
    | ⟨0, _⟩ => rfl
    | ⟨1, _⟩ => rfl)
  -- the first contraction pairs feature d of row n with entry (d, k) of the first layer
  have el0 : ∀ (k : Fin 128) (d : Fin 256), lidx_main_v14 (ix2 n k) d = ix2 n d := fun k d => funext fun a => Fin.ext (by
    match a with
    | ⟨0, _⟩ => rfl
    | ⟨1, _⟩ => rfl)
  have er0 : ∀ (k : Fin 128) (d : Fin 256), ridx_main_v14 (ix2 n k) d = ix2 d k := fun k d => funext fun a => Fin.ext (by
    match a with
    | ⟨0, _⟩ => rfl
    | ⟨1, _⟩ => rfl)
  -- the two broadcasts of the first bias read its entry k, those of the second bias its one entry
  have e1 : ∀ k : Fin 128, idx_main_v15 (idx_main_v16 (ix2 n k)) = ix1 k := fun k => funext fun a => Fin.ext (by
    match a with
    | ⟨0, _⟩ => rfl)
  have e10 : idx_main_v24 (idx_main_v25 (ix2 n (0 : Fin 1))) = ix1 (0 : Fin 1) := funext fun a => Fin.ext (by
    match a with
    | ⟨0, _⟩ => rfl)
  rw [val_main_v27_apply, e13, val_main_v26_apply, val_main_v23_apply, val_main_v25_apply, val_main_v24_apply, e10]
  simp only [el9, er9, val_main_v22_apply, val_main_v19_apply, val_main_v21_apply, val_main_v17_apply, val_main_v14_apply,
    val_main_v16_apply, val_main_v15_apply, val_main_v18_apply, val_main_v20_apply, val_main_cst_1_apply, val_main_cst_2_apply,
    el0, er0, e1, Ideal.addf_def, Ideal.mulf_def, Ideal.ofBits_def, Ideal.cmpf_def]
  -- what is left is the perceptron, its rectifier spelled as the select on "above zero"
  rfl

/-- The edge perceptron's score of edge `e`: stage 41 at `e` is the perceptron over row `e` of the edge features. -/
theorem edge_score_apply (x1 : (⟨S1600000x128, .f32⟩ : BufTy).Contents (Elt Ideal)) (x11 : (⟨S128x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal)) (e : Fin 1600000) :
    val_main_v41 (F := Ideal) x1 x11 x12 x13 x14 (ix1 e)
      = Cert.Spec.mlp (fun d : Fin 128 => x1 (ix2 e d)) (fun (d : Fin 128) (k : Fin 128) => x11 (ix2 d k)) (fun k : Fin 128 => x12 (ix1 k))
          (fun k : Fin 128 => x13 (ix2 k (0 : Fin 1))) (x14 (ix1 (0 : Fin 1))) := by
  -- the reshape reads row e of the one-column array (its row coordinate is e / 1)
  have e13 : idx_main_v41 (ix1 e) = ix2 e (0 : Fin 1) := funext fun a => Fin.ext (by
    match a with
    | ⟨0, _⟩ => exact Nat.div_one _
    | ⟨1, _⟩ => rfl)
  -- the second contraction pairs hidden unit k of row e with row k of the second layer's column
  have el9 : ∀ k : Fin 128, lidx_main_v37 (ix2 e (0 : Fin 1)) k = ix2 e k := fun k => funext fun a => Fin.ext (by
    match a with
    | ⟨0, _⟩ => rfl
    | ⟨1, _⟩ => rfl)
  have er9 : ∀ k : Fin 128, ridx_main_v37 (ix2 e (0 : Fin 1)) k = ix2 k (0 : Fin 1) := fun k => funext fun a => Fin.ext (by
    match a with
    | ⟨0, _⟩ => rfl
    | ⟨1, _⟩ => rfl)
  -- the first contraction pairs feature d of row e with entry (d, k) of the first layer
  have el0 : ∀ (k : Fin 128) (d : Fin 128), lidx_main_v28 (ix2 e k) d = ix2 e d := fun k d => funext fun a => Fin.ext (by
    match a with
    | ⟨0, _⟩ => rfl
    | ⟨1, _⟩ => rfl)
  have er0 : ∀ (k : Fin 128) (d : Fin 128), ridx_main_v28 (ix2 e k) d = ix2 d k := fun k d => funext fun a => Fin.ext (by
    match a with
    | ⟨0, _⟩ => rfl
    | ⟨1, _⟩ => rfl)
  -- the two broadcasts of the first bias read its entry k, those of the second bias its one entry
  have e1 : ∀ k : Fin 128, idx_main_v29 (idx_main_v30 (ix2 e k)) = ix1 k := fun k => funext fun a => Fin.ext (by
    match a with
    | ⟨0, _⟩ => rfl)
  have e10 : idx_main_v38 (idx_main_v39 (ix2 e (0 : Fin 1))) = ix1 (0 : Fin 1) := funext fun a => Fin.ext (by
    match a with
    | ⟨0, _⟩ => rfl)
  rw [val_main_v41_apply, e13, val_main_v40_apply, val_main_v37_apply, val_main_v39_apply, val_main_v38_apply, e10]
  simp only [el9, er9, val_main_v36_apply, val_main_v33_apply, val_main_v35_apply, val_main_v31_apply, val_main_v28_apply,
    val_main_v30_apply, val_main_v29_apply, val_main_v32_apply, val_main_v34_apply, val_main_cst_3_apply, val_main_cst_4_apply,
    el0, er0, e1, Ideal.addf_def, Ideal.mulf_def, Ideal.ofBits_def, Ideal.cmpf_def]
  -- what is left is the perceptron, its rectifier spelled as the select on "above zero"
  rfl

/-- The reference's gate of edge `e`, over its own gathered scores: the two gathers are left as the stages 48 and 55 at
    `e`, the edge score as stage 41 at `e`. Every stage between is elementwise or a broadcast constant, so the stages
    read through at `e` one after the other. -/
theorem gate_apply (x0 : (⟨S50000x256, .f32⟩ : BufTy).Contents (Elt Ideal)) (x1 : (⟨S1600000x128, .f32⟩ : BufTy).Contents (Elt Ideal)) (x2 : (⟨S1600000, .f32⟩ : BufTy).Contents (Elt Ideal))
    (x3 : (⟨S256x128, .f32⟩ : BufTy).Contents (Elt Ideal)) (x4 : (⟨S128, .f32⟩ : BufTy).Contents (Elt Ideal)) (x5 : (⟨S128x1, .f32⟩ : BufTy).Contents (Elt Ideal)) (x6 : (⟨S1, .f32⟩ : BufTy).Contents (Elt Ideal))
    (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal))
    (x11 : (⟨S128x128, .f32⟩ : BufTy).Contents (Elt Ideal)) (x12 : (⟨S128, .f32⟩ : BufTy).Contents (Elt Ideal)) (x13 : (⟨S128x1, .f32⟩ : BufTy).Contents (Elt Ideal)) (x14 : (⟨S1, .f32⟩ : BufTy).Contents (Elt Ideal))
    (x15 x16 : (⟨S1600000, .i32⟩ : BufTy).Contents (Elt Ideal)) (e : Fin 1600000) :
    val_main_v74 (F := Ideal) x0 x1 x2 x3 x4 x5 x6 x7 x8 x9 x10 x11 x12 x13 x14 x15 x16 (ix1 e)
      = Cert.Spec.refGate (x2 (ix1 e)) (val_main_v48 (F := Ideal) x0 x3 x4 x5 x6 x15 (ix1 e))
          (val_main_v55 (F := Ideal) x0 x7 x8 x9 x10 x16 (ix1 e)) (val_main_v41 (F := Ideal) x1 x11 x12 x13 x14 (ix1 e)) := by
  simp only [val_main_v74_apply, val_main_v73_apply, val_main_cst_12_apply, val_main_v72_apply, val_main_v71_apply,
    val_main_cst_11_apply, val_main_v70_apply, val_main_v69_apply, val_main_v68_apply, val_main_v67_apply,
    val_main_cst_10_apply, val_main_v66_apply, val_main_v65_apply, val_main_v64_apply, val_main_v63_apply,
    val_main_v62_apply, val_main_v61_apply, val_main_v60_apply, val_main_cst_9_apply, val_main_v59_apply,
    val_main_v58_apply, val_main_cst_8_apply, val_main_v57_apply, val_main_v56_apply,
    Ideal.hostDivf_def, Ideal.addf_def, Ideal.subf_def, Ideal.mulf_def, Ideal.hostNegf_def, Ideal.negf_def,
    Ideal.hostUnary_exp_def, Ideal.hostUnary_log_def, Ideal.hostUnary_log1p_def, Ideal.ofBits_def]
  -- what is left is the logistic as the reference expands it, over the Gumbel term of the draw at `e`
  rfl

end Cert.ReferenceIdeal.RefValue

end
-- ==== Proof.Joined.lean ====
/-
  The two programs' results are one pair of arrays.

  Both score tables are the same perceptrons of the same arguments; both programs wrap the two index vectors the same way
  and gather the tables at the wrapped column; the edge score is the same perceptron (the kernel takes its biases as a
  [1, 128] row and a [1, 1] cell, the reference as vectors); the two arguments of the logistic are one sum; and the
  regulariser is the same host expression of the gates.
-/
import proofs.«405104_j37160057045562_3_alg».proof.Proof.KernelValue
import proofs.«405104_j37160057045562_3_alg».proof.Proof.RefValue
import proofs.«405104_j37160057045562_3_alg».proof.Proof.Algebra
import proofs.«405104_j37160057045562_3_alg».proof.Proof.Gen.ReferenceIdeal.Read

set_option maxRecDepth 16384

noncomputable section

namespace Cert.Joined

open Idealize.ShloMosaic Idealize.ShloMosaic.TcCoe Idealize.SL.Sem Idealize.ShloMosaic.ValueIdx
open Cert.KernelIdeal.Gen

variable (m : (ℓ : Loc Cert.KernelIdeal.nD Cert.KernelIdeal.τ Cert.KernelIdeal.sig) → Buf (Elt Ideal) ℓ) (ρ : Dev Cert.KernelIdeal.nD → PrngReg)

/-- The edge perceptron over its biases laid as a [1, 128] row and a [1, 1] cell is the perceptron over the bias vectors. -/
theorem edgeScore_flatBias (EF : (⟨2, ![1600000, 128]⟩ : Shape).Idx → EReal) (W1 : (⟨2, ![128, 128]⟩ : Shape).Idx → EReal)
    (b1 : (⟨1, ![128]⟩ : Shape).Idx → EReal) (W2 : (⟨2, ![128, 1]⟩ : Shape).Idx → EReal) (b2 : (⟨1, ![1]⟩ : Shape).Idx → EReal)
    (h1 : (⟨1, ![128]⟩ : Shape).ShapeCasts ⟨2, ![1, 128]⟩) (h2 : (⟨1, ![1]⟩ : Shape).ShapeCasts ⟨2, ![1, 1]⟩) (e : Fin 1600000) :
    Cert.Spec.edgeScore EF W1 (shapeCast ⟨2, ![1, 128]⟩ b1 h1) W2 (shapeCast ⟨2, ![1, 1]⟩ b2 h2) e
      = Cert.Spec.mlp (fun d : Fin 128 => EF (ix2 e d)) (fun (d : Fin 128) (k : Fin 128) => W1 (ix2 d k)) (fun k : Fin 128 => b1 (ix1 k))
          (fun k : Fin 128 => W2 (ix2 k (0 : Fin 1))) (b2 (ix1 (0 : Fin 1))) := by
  unfold Cert.Spec.edgeScore
  have hb1 : ∀ k : Fin 128, shapeCast ⟨2, ![1, 128]⟩ b1 h1 (ix2 (0 : Fin 1) k) = b1 (ix1 k) := fun k =>
    shapeCast_apply _ _ (ix2 (0 : Fin 1) k) (ix1 k) (by rw [Shape.rowMajor_val_two, Shape.rowMajor_val_one]; simp)
  have hb2 : shapeCast ⟨2, ![1, 1]⟩ b2 h2 (ix2 (0 : Fin 1) (0 : Fin 1)) = b2 (ix1 (0 : Fin 1)) :=
    shapeCast_apply _ _ (ix2 (0 : Fin 1) (0 : Fin 1)) (ix1 (0 : Fin 1)) (by rw [Shape.rowMajor_val_two, Shape.rowMajor_val_one]; simp)
  simp only [hb1, hb2]

/-- The kernel's source score table is the reference's. -/
theorem srcTable_joined (c : Dev Cert.KernelIdeal.nD) :
    (W3 m ρ c (Proc.devRef .tc Cert.KernelIdeal.main_v11) : Cert.KernelIdeal.S50000.Idx → EReal)
      = Cert.ReferenceIdeal.Read.val_main_v13 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  refine funext fun i => ?_
  obtain ⟨n, rfl⟩ : ∃ n : Fin 50000, i = ix1 n := ⟨i 0, eq_ix1 i⟩
  rw [Cert.KernelIdeal.KernelValue.srcTable_apply, Cert.ReferenceIdeal.RefValue.src_score_apply]

/-- The kernel's destination score table is the reference's. -/
theorem dstTable_joined (c : Dev Cert.KernelIdeal.nD) :
    (W3 m ρ c (Proc.devRef .tc Cert.KernelIdeal.main_v13) : Cert.KernelIdeal.S50000.Idx → EReal)
      = Cert.ReferenceIdeal.Read.val_main_v27 (F := Ideal) (m ((c : Thread Cert.KernelIdeal.nD Cert.KernelIdeal.τ).loc Cert.KernelIdeal.main_arg0)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  refine funext fun i => ?_
  obtain ⟨n, rfl⟩ : ∃ n : Fin 50000, i = ix1 n := ⟨i 0, eq_ix1 i⟩
  rw [Cert.KernelIdeal.KernelValue.dstTable_apply, Cert.ReferenceIdeal.RefValue.dst_score_apply]

/-- Both programs wrap an index vector by the same operations. -/
theorem wrapCol_joined (x : IVec Cert.KernelIdeal.S1600000 32) : Cert.KernelIdeal.TakeMask.wrapCol x = Cert.ReferenceIdeal.Read.val_main_v47 (F := Ideal) x := rfl
theorem wrapCol_joined' (x : IVec Cert.KernelIdeal.S1600000 32) : Cert.KernelIdeal.TakeMask.wrapCol x = Cert.ReferenceIdeal.Read.val_main_v54 (F := Ideal) x := rfl

/-- The gates: with both index vectors in range, the kernel's flat gate vector is the reference's. -/
theorem gates_joined (c : Dev Cert.KernelIdeal.nD) (hs : Cert.Spec.InRange (m ((c : Thread Cert.KernelIdeal.nD Cert.KernelIdeal.τ).loc Cert.KernelIdeal.main_arg15))) (hd : Cert.Spec.InRange (m ((c : Thread Cert.KernelIdeal.nD Cert.KernelIdeal.τ).loc Cert.KernelIdeal.main_arg16))) :
    (W8 m ρ c (Proc.devRef .tc Cert.KernelIdeal.main_v30) : Cert.KernelIdeal.S1600000.Idx → EReal)
      = Cert.ReferenceIdeal.Read.val_main_v74 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) := by
  refine funext fun i => ?_
  obtain ⟨e, rfl⟩ : ∃ e : Fin 1600000, i = ix1 e := ⟨i 0, eq_ix1 i⟩
  rw [Cert.KernelIdeal.KernelValue.gatesFlat_apply, Cert.KernelIdeal.KernelValue.gates_apply, Cert.ReferenceIdeal.RefValue.gate_apply]
  unfold Cert.Spec.edgeOut
  rw [Cert.KernelIdeal.KernelValue.row_apply m ρ c e _ _
      ((Cert.KernelIdeal.HostFold.W5_of m ρ c Cert.KernelIdeal.main_v14 (by decide)).trans (Cert.KernelIdeal.KernelValue.srcTake_eq m ρ c hs))
      (Cert.KernelIdeal.KernelValue.dstTake_eq m ρ c hd),
    edgeScore_flatBias, ← Cert.ReferenceIdeal.RefValue.edge_score_apply, srcTable_joined, dstTable_joined, wrapCol_joined, wrapCol_joined']
  exact Cert.Spec.kernelGate_eq_refGate _ _ _ _

/-- The regulariser: the same host expression of the same gates. -/
theorem reg_joined (c : Dev Cert.KernelIdeal.nD) (hs : Cert.Spec.InRange (m ((c : Thread Cert.KernelIdeal.nD Cert.KernelIdeal.τ).loc Cert.KernelIdeal.main_arg15))) (hd : Cert.Spec.InRange (m ((c : Thread Cert.KernelIdeal.nD Cert.KernelIdeal.τ).loc Cert.KernelIdeal.main_arg16))) :
    (W8 m ρ c (Proc.devRef .tc Cert.KernelIdeal.main_v34) : Cert.KernelIdeal.S_.Idx → EReal)
      = Cert.ReferenceIdeal.Read.val_main_v78 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) := by
  rw [Cert.KernelIdeal.KernelValue.reg_eq, gates_joined m ρ c hs hd]
  rfl

/-! ## The same, over reference arrays that agree with the kernel's arguments -/

/-- The gates, for reference arrays `x0 … x16` equal to the kernel's argument arrays. -/
theorem gates_joined_of_agree (c : Dev Cert.KernelIdeal.nD) (x0 : (⟨Cert.ReferenceIdeal.S50000x256, .f32⟩ : BufTy).Contents (Elt Ideal)) (x1 : (⟨Cert.ReferenceIdeal.S1600000x128, .f32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x1, .f32⟩ : BufTy).Contents (Elt Ideal)) (x6 : (⟨Cert.ReferenceIdeal.S1, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x1, .f32⟩ : BufTy).Contents (Elt Ideal)) (x10 : (⟨Cert.ReferenceIdeal.S1, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128x1, .f32⟩ : BufTy).Contents (Elt Ideal)) (x14 : (⟨Cert.ReferenceIdeal.S1, .f32⟩ : BufTy).Contents (Elt Ideal)) (x15 : (⟨Cert.ReferenceIdeal.S1600000, .i32⟩ : BufTy).Contents (Elt Ideal)) (x16 : (⟨Cert.ReferenceIdeal.S1600000, .i32⟩ : BufTy).Contents (Elt Ideal))
    (e0 : x0 = m ((c : Thread Cert.KernelIdeal.nD Cert.KernelIdeal.τ).loc Cert.KernelIdeal.main_arg0))
    (e1 : x1 = m ((c : Thread Cert.KernelIdeal.nD Cert.KernelIdeal.τ).loc Cert.KernelIdeal.main_arg1))
    (e2 : x2 = m ((c : Thread Cert.KernelIdeal.nD Cert.KernelIdeal.τ).loc Cert.KernelIdeal.main_arg2))
    (e3 : x3 = m ((c : Thread Cert.KernelIdeal.nD Cert.KernelIdeal.τ).loc Cert.KernelIdeal.main_arg3))
    (e4 : x4 = m ((c : Thread Cert.KernelIdeal.nD Cert.KernelIdeal.τ).loc Cert.KernelIdeal.main_arg4))
    (e5 : x5 = m ((c : Thread Cert.KernelIdeal.nD Cert.KernelIdeal.τ).loc Cert.KernelIdeal.main_arg5))
    (e6 : x6 = m ((c : Thread Cert.KernelIdeal.nD Cert.KernelIdeal.τ).loc Cert.KernelIdeal.main_arg6))
    (e7 : x7 = m ((c : Thread Cert.KernelIdeal.nD Cert.KernelIdeal.τ).loc Cert.KernelIdeal.main_arg7))
    (e8 : x8 = m ((c : Thread Cert.KernelIdeal.nD Cert.KernelIdeal.τ).loc Cert.KernelIdeal.main_arg8))
    (e9 : x9 = m ((c : Thread Cert.KernelIdeal.nD Cert.KernelIdeal.τ).loc Cert.KernelIdeal.main_arg9))
    (e10 : x10 = m ((c : Thread Cert.KernelIdeal.nD Cert.KernelIdeal.τ).loc Cert.KernelIdeal.main_arg10))
    (e11 : x11 = m ((c : Thread Cert.KernelIdeal.nD Cert.KernelIdeal.τ).loc Cert.KernelIdeal.main_arg11))
    (e12 : x12 = m ((c : Thread Cert.KernelIdeal.nD Cert.KernelIdeal.τ).loc Cert.KernelIdeal.main_arg12))
    (e13 : x13 = m ((c : Thread Cert.KernelIdeal.nD Cert.KernelIdeal.τ).loc Cert.KernelIdeal.main_arg13))
    (e14 : x14 = m ((c : Thread Cert.KernelIdeal.nD Cert.KernelIdeal.τ).loc Cert.KernelIdeal.main_arg14))
    (e15 : x15 = m ((c : Thread Cert.KernelIdeal.nD Cert.KernelIdeal.τ).loc Cert.KernelIdeal.main_arg15))
    (e16 : x16 = m ((c : Thread Cert.KernelIdeal.nD Cert.KernelIdeal.τ).loc Cert.KernelIdeal.main_arg16))
    (hs : Cert.Spec.InRange (m ((c : Thread Cert.KernelIdeal.nD Cert.KernelIdeal.τ).loc Cert.KernelIdeal.main_arg15))) (hd : Cert.Spec.InRange (m ((c : Thread Cert.KernelIdeal.nD Cert.KernelIdeal.τ).loc Cert.KernelIdeal.main_arg16))) :
    (W8 m ρ c (Proc.devRef .tc Cert.KernelIdeal.main_v30) : Cert.KernelIdeal.S1600000.Idx → EReal)
      = Cert.ReferenceIdeal.Read.val_main_v74 (F := Ideal) x0 x1 x2 x3 x4 x5 x6 x7 x8 x9 x10 x11 x12 x13 x14 x15 x16 := by
  subst e0 e1 e2 e3 e4 e5 e6 e7 e8 e9 e10 e11 e12 e13 e14 e15 e16
  exact gates_joined m ρ c hs hd

/-- The regulariser, likewise. -/
theorem reg_joined_of_agree (c : Dev Cert.KernelIdeal.nD) (x0 : (⟨Cert.ReferenceIdeal.S50000x256, .f32⟩ : BufTy).Contents (Elt Ideal)) (x1 : (⟨Cert.ReferenceIdeal.S1600000x128, .f32⟩ : BufTy).Contents (Elt Ideal)) (x2 : (⟨Cert.ReferenceIdeal.S1600000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x1, .f32⟩ : BufTy).Contents (Elt Ideal)) (x6 : (⟨Cert.ReferenceIdeal.S1, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal)) (x9 : (⟨Cert.ReferenceIdeal.S128x1, .f32⟩ : BufTy).Contents (Elt Ideal)) (x10 : (⟨Cert.ReferenceIdeal.S1, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal)) (x13 : (⟨Cert.ReferenceIdeal.S128x1, .f32⟩ : BufTy).Contents (Elt Ideal)) (x14 : (⟨Cert.ReferenceIdeal.S1, .f32⟩ : BufTy).Contents (Elt Ideal)) (x15 : (⟨Cert.ReferenceIdeal.S1600000, .i32⟩ : BufTy).Contents (Elt Ideal)) (x16 : (⟨Cert.ReferenceIdeal.S1600000, .i32⟩ : BufTy).Contents (Elt Ideal))
    (e0 : x0 = m ((c : Thread Cert.KernelIdeal.nD Cert.KernelIdeal.τ).loc Cert.KernelIdeal.main_arg0))
    (e1 : x1 = m ((c : Thread Cert.KernelIdeal.nD Cert.KernelIdeal.τ).loc Cert.KernelIdeal.main_arg1))
    (e2 : x2 = m ((c : Thread Cert.KernelIdeal.nD Cert.KernelIdeal.τ).loc Cert.KernelIdeal.main_arg2))
    (e3 : x3 = m ((c : Thread Cert.KernelIdeal.nD Cert.KernelIdeal.τ).loc Cert.KernelIdeal.main_arg3))
    (e4 : x4 = m ((c : Thread Cert.KernelIdeal.nD Cert.KernelIdeal.τ).loc Cert.KernelIdeal.main_arg4))
    (e5 : x5 = m ((c : Thread Cert.KernelIdeal.nD Cert.KernelIdeal.τ).loc Cert.KernelIdeal.main_arg5))
    (e6 : x6 = m ((c : Thread Cert.KernelIdeal.nD Cert.KernelIdeal.τ).loc Cert.KernelIdeal.main_arg6))
    (e7 : x7 = m ((c : Thread Cert.KernelIdeal.nD Cert.KernelIdeal.τ).loc Cert.KernelIdeal.main_arg7))
    (e8 : x8 = m ((c : Thread Cert.KernelIdeal.nD Cert.KernelIdeal.τ).loc Cert.KernelIdeal.main_arg8))
    (e9 : x9 = m ((c : Thread Cert.KernelIdeal.nD Cert.KernelIdeal.τ).loc Cert.KernelIdeal.main_arg9))
    (e10 : x10 = m ((c : Thread Cert.KernelIdeal.nD Cert.KernelIdeal.τ).loc Cert.KernelIdeal.main_arg10))
    (e11 : x11 = m ((c : Thread Cert.KernelIdeal.nD Cert.KernelIdeal.τ).loc Cert.KernelIdeal.main_arg11))
    (e12 : x12 = m ((c : Thread Cert.KernelIdeal.nD Cert.KernelIdeal.τ).loc Cert.KernelIdeal.main_arg12))
    (e13 : x13 = m ((c : Thread Cert.KernelIdeal.nD Cert.KernelIdeal.τ).loc Cert.KernelIdeal.main_arg13))
    (e14 : x14 = m ((c : Thread Cert.KernelIdeal.nD Cert.KernelIdeal.τ).loc Cert.KernelIdeal.main_arg14))
    (e15 : x15 = m ((c : Thread Cert.KernelIdeal.nD Cert.KernelIdeal.τ).loc Cert.KernelIdeal.main_arg15))
    (e16 : x16 = m ((c : Thread Cert.KernelIdeal.nD Cert.KernelIdeal.τ).loc Cert.KernelIdeal.main_arg16))
    (hs : Cert.Spec.InRange (m ((c : Thread Cert.KernelIdeal.nD Cert.KernelIdeal.τ).loc Cert.KernelIdeal.main_arg15))) (hd : Cert.Spec.InRange (m ((c : Thread Cert.KernelIdeal.nD Cert.KernelIdeal.τ).loc Cert.KernelIdeal.main_arg16))) :
    (W8 m ρ c (Proc.devRef .tc Cert.KernelIdeal.main_v34) : Cert.KernelIdeal.S_.Idx → EReal)
      = Cert.ReferenceIdeal.Read.val_main_v78 (F := Ideal) x0 x1 x2 x3 x4 x5 x6 x7 x8 x9 x10 x11 x12 x13 x14 x15 x16 := by
  subst e0 e1 e2 e3 e4 e5 e6 e7 e8 e9 e10 e11 e12 e13 e14 e15 e16
  exact reg_joined m ρ c hs hd

end Cert.Joined

end
-- ==== Proof.lean ====
/-
  The certificate of the edge-drop learner's kernel against its jnp reference, over the extended reals, for float inputs
  that are finite and both index vectors in [-50000, 50000) (the range in which the reference's table indexing is defined:
  outside it the reference gathers a clamped entry while the kernel's filling take returns a NaN, whose junk value the
  logistic sends to 0).

  The three frames: the kernel's two, at the word level and at the ideal values, are the generated whole-frame
  certificates of its two-region @main; the reference's is its generated run with the results dropped.  The ideal pass
  rewrote nothing, so `preserves` asks nothing.  The algebraic claim: the kernel's run with its two results named
  (the regulariser's and the gates' buffers at the last boundary of the fold through @main), the reference's generated
  run, and the equality of the two pairs of results (Proof/Joined.lean) under the precondition's index ranges
  (Proof/PreRange.lean).
-/
import proofs.«405104_j37160057045562_3_alg».proof.Defs
import proofs.«405104_j37160057045562_3_alg».proof.Proof.Gen.Kernel
import proofs.«405104_j37160057045562_3_alg».proof.Proof.Gen.Kernel.Frame
import proofs.«405104_j37160057045562_3_alg».proof.Proof.Gen.KernelIdeal
import proofs.«405104_j37160057045562_3_alg».proof.Proof.Gen.KernelIdeal.Frame
import proofs.«405104_j37160057045562_3_alg».proof.Proof.Gen.ReferenceIdeal
import proofs.«405104_j37160057045562_3_alg».proof.Proof.Gen.ReferenceIdeal.Run
import proofs.«405104_j37160057045562_3_alg».proof.Proof.Gen.ReferenceIdeal.Read
import proofs.«405104_j37160057045562_3_alg».proof.Proof.Gen.Pre_finite_inputs
import proofs.«405104_j37160057045562_3_alg».proof.Proof.KernelRun
import proofs.«405104_j37160057045562_3_alg».proof.Proof.PreRange
import proofs.«405104_j37160057045562_3_alg».proof.Proof.Joined
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass's ledger is empty. -/
theorem preserves : Cert.preserves_Kernel_KernelIdeal := trivial

/-- From memories that agree on the arguments, both programs end with the same regulariser and the same gates. -/
theorem algebraic : Cert.algebraic_KernelIdeal_ReferenceIdeal := by
  intro m ρ m' ρ' hpre hagree
  refine ⟨fun c => Cert.KernelIdeal.Gen.W8 m ρ c (Proc.devRef .tc Cert.KernelIdeal.main_v34),
    fun c => Cert.KernelIdeal.Gen.W8 m ρ c (Proc.devRef .tc Cert.KernelIdeal.main_v30),
    Cert.KernelIdeal.Gen.run_named (F := Ideal) m ρ, ?_⟩
  refine (θ_run Cert.ReferenceIdeal.defs _ _).mono (fun _ h c => ?_) (Cert.ReferenceIdeal.Value.run (F := Ideal) m' ρ')
  obtain ⟨hs, hd⟩ := Cert.Pre_finite_inputs.Range.range_of_pre _ _ _ _ _ _ _ _ _ _ _ _ _ _ _ _ _ (hpre c)
  obtain ⟨h0, h1, h2, h3, h4, h5, h6, h7, h8, h9, h10, h11, h12, h13, h14, h15, h16⟩ := hagree c
  refine ⟨(h c).1.trans ?_, (h c).2.1.trans ?_, (h c).2.2⟩
  · exact (Cert.ReferenceIdeal.Read.val_main_v78_eq m' c).trans
      (Cert.Joined.reg_joined_of_agree m ρ c _ _ _ _ _ _ _ _ _ _ _ _ _ _ _ _ _ h0 h1 h2 h3 h4 h5 h6 h7 h8 h9 h10 h11 h12 h13 h14 h15 h16 hs hd).symm
  · exact (Cert.ReferenceIdeal.Read.val_main_v74_eq m' c).trans
      (Cert.Joined.gates_joined_of_agree m ρ c _ _ _ _ _ _ _ _ _ _ _ _ _ _ _ _ _ h0 h1 h2 h3 h4 h5 h6 h7 h8 h9 h10 h11 h12 h13 h14 h15 h16 hs hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
